-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x100x320 : Shape := ⟨3, ![4, 100, 320]⟩
abbrev S512x640 : Shape := ⟨2, ![512, 640]⟩
abbrev S640 : Shape := ⟨1, ![640]⟩
abbrev S320x640 : Shape := ⟨2, ![320, 640]⟩
abbrev S640x512 : Shape := ⟨2, ![640, 512]⟩
abbrev S512 : Shape := ⟨1, ![512]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x100x320 : S_.BroadcastsInDim S4x100x320 (![] : Fin 0 → Fin S4x100x320.rank)
  reducesTo_S4x100x320_S_d0_1_2 : S4x100x320.ReducesTo [0, 1, 2] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S320x640 : S_.BroadcastsInDim S320x640 (![] : Fin 0 → Fin S320x640.rank)
  reducesTo_S320x640_S_d0_1 : S320x640.ReducesTo [0, 1] S_
  bcast_S_S640x512 : S_.BroadcastsInDim S640x512 (![] : Fin 0 → Fin S640x512.rank)
  reducesTo_S640x512_S_d0_1 : S640x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S320x640 .f32) (main_arg5 : FVec F S640 .f32) (main_arg6 : FVec F S640x512 .f32) (main_arg7 : FVec F S512 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S320x640 .f32 := Host.absf main_arg4
  let main_cst_6 : FVec F S_ .f32 := constant S_ .f32 0x7F800000#32
  let main_v20 : FVec F S320x640 .f32 := broadcastInDim S320x640 ![] bcast_S_S320x640 main_cst_6
  let main_v21 : IVec S320x640 1 := cmpf .olt main_v19 main_v20
  let main_c_7 : IVec S_ 1 := constantI S_ 1 1#1
  let main_v22 : IVec S_ 1 := (fun x v => Host.reduce IntOp.andi x v reducesTo_S320x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S640x512 .f32 := Host.absf main_arg6
  let main_cst_10 : FVec F S_ .f32 := constant S_ .f32 0x7F800000#32
  let main_v30 : FVec F S640x512 .f32 := broadcastInDim S640x512 ![] bcast_S_S640x512 main_cst_10
  let main_v31 : IVec S640x512 1 := cmpf .olt main_v29 main_v30
  let main_c_11 : IVec S_ 1 := constantI S_ 1 1#1
  let main_v32 : IVec S_ 1 := (fun x v => Host.reduce IntOp.andi x v reducesTo_S640x512_S_d0_1 h_S_) main_v31 main_c_11
  let main_v33 : IVec S_ 1 := andi main_v28 main_v32
  fn_part2 (F := F) main_arg7 main_v33

def fn {F : FTy → Type} [FloatOps F] (main_arg0 : FVec F S4x512x512 .f32) (main_arg1 : FVec F S4x100x320 .f32) (main_arg2 : FVec F S512x640 .f32) (main_arg3 : FVec F S640 .f32) (main_arg4 : FVec F S320x640 .f32) (main_arg5 : FVec F S640 .f32) (main_arg6 : FVec F S640x512 .f32) (main_arg7 : FVec F S512 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x100x320 .f32 := Host.absf main_arg1
  let main_cst_0 : FVec F S_ .f32 := constant S_ .f32 0x7F800000#32
  let main_v5 : FVec F S4x100x320 .f32 := broadcastInDim S4x100x320 ![] bcast_S_S4x100x320 main_cst_0
  let main_v6 : IVec S4x100x320 1 := cmpf .olt main_v4 main_v5
  let main_c_1 : IVec S_ 1 := constantI S_ 1 1#1
  let main_v7 : IVec S_ 1 := (fun x v => Host.reduce IntOp.andi x v reducesTo_S4x100x320_S_d0_1_2 h_S_) main_v6 main_c_1
  let main_v8 : IVec S_ 1 := andi main_v3 main_v7
  let main_v9 : FVec F S512x640 .f32 := Host.absf main_arg2
  let main_cst_2 : FVec F S_ .f32 := constant S_ .f32 0x7F800000#32
  let main_v10 : FVec F S512x640 .f32 := broadcastInDim S512x640 ![] bcast_S_S512x640 main_cst_2
  let main_v11 : IVec S512x640 1 := cmpf .olt main_v9 main_v10
  let main_c_3 : IVec S_ 1 := constantI S_ 1 1#1
  let main_v12 : IVec S_ 1 := (fun x v => Host.reduce IntOp.andi x v reducesTo_S512x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S4x512x512 : Shape := ⟨3, ![4, 512, 512]⟩
abbrev S4x100x320 : Shape := ⟨3, ![4, 100, 320]⟩
abbrev S512x640 : Shape := ⟨2, ![512, 640]⟩
abbrev S640 : Shape := ⟨1, ![640]⟩
abbrev S320x640 : Shape := ⟨2, ![320, 640]⟩
abbrev S640x512 : Shape := ⟨2, ![640, 512]⟩
abbrev S512 : Shape := ⟨1, ![512]⟩
abbrev S_ : Shape := ⟨0, ![]⟩
abbrev S4x104x320 : Shape := ⟨3, ![4, 104, 320]⟩
abbrev S1x640 : Shape := ⟨2, ![1, 640]⟩
abbrev S1x512 : Shape := ⟨2, ![1, 512]⟩
abbrev S4x512x104x512 : Shape := ⟨4, ![4, 512, 104, 512]⟩
abbrev S1x32x512 : Shape := ⟨3, ![1, 32, 512]⟩
abbrev S1x104x320 : Shape := ⟨3, ![1, 104, 320]⟩
abbrev S512x128 : Shape := ⟨2, ![512, 128]⟩
abbrev S1x128 : Shape := ⟨2, ![1, 128]⟩
abbrev S320x128 : Shape := ⟨2, ![320, 128]⟩
abbrev S128x512 : Shape := ⟨2, ![128, 512]⟩
abbrev S1x32x104x512 : Shape := ⟨4, ![1, 32, 104, 512]⟩
abbrev S32x512 : Shape := ⟨2, ![32, 512]⟩
abbrev S32x128 : Shape := ⟨2, ![32, 128]⟩
abbrev S104x320 : Shape := ⟨2, ![104, 320]⟩
abbrev S104x128 : Shape := ⟨2, ![104, 128]⟩
abbrev S32x1x128 : Shape := ⟨3, ![32, 1, 128]⟩
abbrev S1x104x128 : Shape := ⟨3, ![1, 104, 128]⟩
abbrev S32x104x128 : Shape := ⟨3, ![32, 104, 128]⟩
abbrev S3328x128 : Shape := ⟨2, ![3328, 128]⟩
abbrev S3328x512 : Shape := ⟨2, ![3328, 512]⟩
abbrev S32x104x512 : Shape := ⟨3, ![32, 104, 512]⟩
abbrev S1x1x512 : Shape := ⟨3, ![1, 1, 512]⟩
abbrev S4x512x100x512 : Shape := ⟨4, ![4, 512, 100, 512]⟩

abbrev nBuf : Space → Nat
  | .hbm => 16
  | .vmem => 17
  | .smem => 0
  | _ => 0

abbrev bufTy : (tb : Table) → Fin (tcTables nBuf tb) → BufTy
  | .hbm, ⟨0, _⟩ => ⟨S4x512x512, .f32⟩
  | .hbm, ⟨1, _⟩ => ⟨S4x100x320, .f32⟩
  | .hbm, ⟨2, _⟩ => ⟨S512x640, .f32⟩
  | .hbm, ⟨3, _⟩ => ⟨S640, .f32⟩
  | .hbm, ⟨4, _⟩ => ⟨S320x640, .f32⟩
  | .hbm, ⟨5, _⟩ => ⟨S640, .f32⟩
  | .hbm, ⟨6, _⟩ => ⟨S640x512, .f32⟩
  | .hbm, ⟨7, _⟩ => ⟨S512, .f32⟩
  | .hbm, ⟨8, _⟩ => ⟨S_, .i32⟩
  | .hbm, ⟨9, _⟩ => ⟨S_, .f32⟩
  | .hbm, ⟨10, _⟩ => ⟨S4x104x320, .f32⟩
  | .hbm, ⟨11, _⟩ => ⟨S1x640, .f32⟩
  | .hbm, ⟨12, _⟩ => ⟨S1x640, .f32⟩
  | .hbm, ⟨13, _⟩ => ⟨S1x512, .f32⟩
  | .hbm, ⟨14, _⟩ => ⟨S4x512x104x512, .f32⟩
  | .hbm, ⟨15, _⟩ => ⟨S4x512x100x512, .f32⟩
  | .local _ .vmem, ⟨0, _⟩ => ⟨S1x32x512, .f32⟩
  | .local _ .vmem, ⟨1, _⟩ => ⟨S1x32x512, .f32⟩
  | .local _ .vmem, ⟨2, _⟩ => ⟨S1x104x320, .f32⟩
  | .local _ .vmem, ⟨3, _⟩ => ⟨S1x104x320, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S320x128, .f32⟩
  | .local _ .vmem, ⟨9, _⟩ => ⟨S320x128, .f32⟩
  | .local _ .vmem, ⟨10, _⟩ => ⟨S1x128, .f32⟩
  | .local _ .vmem, ⟨11, _⟩ => ⟨S1x128, .f32⟩
  | .local _ .vmem, ⟨12, _⟩ => ⟨S128x512, .f32⟩
  | .local _ .vmem, ⟨13, _⟩ => ⟨S128x512, .f32⟩
  | .local _ .vmem, ⟨14, _⟩ => ⟨S1x512, .f32⟩
  | .local _ .vmem, ⟨15, _⟩ => ⟨S1x32x104x512, .f32⟩
  | .local _ .vmem, ⟨16, _⟩ => ⟨S1x32x104x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 16, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x104x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S320x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x32x104x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  pads_S4x100x320_S4x104x320_000_040_000 : S4x100x320.Pads (![0, 0, 0] : Fin 3 → Nat) ![0, 4, 0] ![0, 0, 0] S4x104x320
  h_S_ : 0 < S_.numel
  shapeCasts_S640_S1x640 : S640.ShapeCasts S1x640
  shapeCasts_S512_S1x512 : S512.ShapeCasts S1x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S1x104x320_S1x104x320_0_0_0 : ∀ a, (![0, 0, 0] : Fin 3 → Nat) a + S1x104x320.size a ≤ S1x104x320.size a
  h_S1x104x320 : 0 < S1x104x320.numel
  shapeCasts_S1x104x320_S104x320 : S1x104x320.ShapeCasts S104x320
  inb_S320x128_S320x128_0_0 : ∀ a, (![0, 0] : Fin 2 → Nat) a + S320x128.size a ≤ S320x128.size a
  h_S320x128 : 0 < S320x128.numel
  broadcasts_S1x128_S104x128 : S1x128.Broadcasts S104x128
  shapeCasts_S32x128_S32x1x128 : S32x128.ShapeCasts S32x1x128
  shapeCasts_S104x128_S1x104x128 : S104x128.ShapeCasts S1x104x128
  broadcasts_S32x1x128_S32x104x128 : S32x1x128.Broadcasts S32x104x128
  broadcasts_S1x104x128_S32x104x128 : S1x104x128.Broadcasts S32x104x128
  shapeCasts_S32x104x128_S3328x128 : S32x104x128.ShapeCasts S3328x128
  inb_S128x512_S128x512_0_0 : ∀ a, (![0, 0] : Fin 2 → Nat) a + S128x512.size a ≤ S128x512.size a
  h_S128x512 : 0 < S128x512.numel
  shapeCasts_S3328x512_S32x104x512 : S3328x512.ShapeCasts S32x104x512
  inb_S1x32x104x512_S1x32x104x512_0_0_0_0 : ∀ a, (![0, 0, 0, 0] : Fin 4 → Nat) a + S1x32x104x512.size a ≤ S1x32x104x512.size a
  h_S1x32x104x512 : 0 < S1x32x104x512.numel
  shapeCasts_S1x32x104x512_S32x104x512 : S1x32x104x512.ShapeCasts S32x104x512
  shapeCasts_S32x104x512_S1x32x104x512 : S32x104x512.ShapeCasts S1x32x104x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  shapeCasts_S1x1x512_S1x1x512 : S1x1x512.ShapeCasts S1x1x512
  broadcasts_S1x1x512_S32x104x512 : S1x1x512.Broadcasts S32x104x512
  slices_S4x512x104x512_S4x512x100x512_0_0_0_0 : S4x512x104x512.Slices ![0, 0, 0, 0] S4x512x100x512
  dot_S32x512_S512x128_S32x128_1_0_0_1_n_n_wf : DotDims.WF S32x512 S512x128 S32x128 [1] [0] [0] [1] [] []
  dot_S104x320_S320x128_S104x128_1_0_0_1_n_n_wf : DotDims.WF S104x320 S320x128 S104x128 [1] [0] [0] [1] [] []
  dot_S3328x128_S128x512_S3328x512_1_0_0_1_n_n_wf : DotDims.WF S3328x128 S128x512 S3328x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x512x512.size a
  hwx0_0 : ∀ i : grid0.Coords, EltTy.bits .f32 = 32 ∨ (Rect.block (s := S4x512x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x104x320.size a ≤ S4x104x320.size a
  hwx0_1 : ∀ i : grid0.Coords, EltTy.bits .f32 = 32 ∨ (Rect.block (s := S4x104x320) S1x104x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x640.size a
  hwx0_2 : ∀ i : grid0.Coords, EltTy.bits .f32 = 32 ∨ (Rect.block (s := S512x640) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x640.size a
  hwx0_3 : ∀ i : grid0.Coords, EltTy.bits .f32 = 32 ∨ (Rect.block (s := S1x640) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S320x128.size a ≤ S320x640.size a
  hwx0_4 : ∀ i : grid0.Coords, EltTy.bits .f32 = 32 ∨ (Rect.block (s := S320x640) S320x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x640.size a
  hwx0_5 : ∀ i : grid0.Coords, EltTy.bits .f32 = 32 ∨ (Rect.block (s := S1x640) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S640x512.size a
  hwx0_6 : ∀ i : grid0.Coords, EltTy.bits .f32 = 32 ∨ (Rect.block (s := S640x512) S128x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x104x512.size a ≤ S4x512x104x512.size a
  hwx0_8 : ∀ i : grid0.Coords, EltTy.bits .f32 = 32 ∨ (Rect.block (s := S4x512x104x512) S1x32x104x512.size (cc0_transform_8 i) (hinb0_8 i)).WholeWords (EltTy.packing .f32)

variable [Facts₀]

def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S104x320_S320x128_S104x128_1_0_0_1_n_n : DotDims S104x320 S320x128 S104x128 where
  lhsContracting := [1]
  rhsContracting := [0]
  lhsNonContracting := [0]
  rhsNonContracting := [1]
  lhsBatch := []
  rhsBatch := []
  wf := dot_S104x320_S320x128_S104x128_1_0_0_1_n_n_wf
def dot_S3328x128_S128x512_S3328x512_1_0_0_1_n_n : DotDims S3328x128 S128x512 S3328x512 where
  lhsContracting := [1]
  rhsContracting := [0]
  lhsNonContracting := [0]
  rhsNonContracting := [1]
  lhsBatch := []
  rhsBatch := []
  wf := dot_S3328x128_S128x512_S3328x512_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x104x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S320x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32x104x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S4x100x320 : Shape := ⟨3, ![4, 100, 320]⟩
abbrev S512x640 : Shape := ⟨2, ![512, 640]⟩
abbrev S640 : Shape := ⟨1, ![640]⟩
abbrev S320x640 : Shape := ⟨2, ![320, 640]⟩
abbrev S640x512 : Shape := ⟨2, ![640, 512]⟩
abbrev S512 : Shape := ⟨1, ![512]⟩
abbrev S4x512x640 : Shape := ⟨3, ![4, 512, 640]⟩
abbrev S1x1x640 : Shape := ⟨3, ![1, 1, 640]⟩
abbrev S4x100x640 : Shape := ⟨3, ![4, 100, 640]⟩
abbrev S4x512x1x640 : Shape := ⟨4, ![4, 512, 1, 640]⟩
abbrev S4x1x100x640 : Shape := ⟨4, ![4, 1, 100, 640]⟩
abbrev S4x512x100x640 : Shape := ⟨4, ![4, 512, 100, 640]⟩
abbrev S4x512x100x512 : Shape := ⟨4, ![4, 512, 100, 512]⟩
abbrev S1x1x1x512 : Shape := ⟨4, ![1, 1, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x100x320, .f32⟩
  | .hbm, ⟨2, _⟩ => ⟨S512x640, .f32⟩
  | .hbm, ⟨3, _⟩ => ⟨S640, .f32⟩
  | .hbm, ⟨4, _⟩ => ⟨S320x640, .f32⟩
  | .hbm, ⟨5, _⟩ => ⟨S640, .f32⟩
  | .hbm, ⟨6, _⟩ => ⟨S640x512, .f32⟩
  | .hbm, ⟨7, _⟩ => ⟨S512, .f32⟩
  | .hbm, ⟨8, _⟩ => ⟨S4x512x640, .f32⟩
  | .hbm, ⟨9, _⟩ => ⟨S1x1x640, .f32⟩
  | .hbm, ⟨10, _⟩ => ⟨S4x512x640, .f32⟩
  | .hbm, ⟨11, _⟩ => ⟨S4x512x640, .f32⟩
  | .hbm, ⟨12, _⟩ => ⟨S4x100x640, .f32⟩
  | .hbm, ⟨13, _⟩ => ⟨S1x1x640, .f32⟩
  | .hbm, ⟨14, _⟩ => ⟨S4x100x640, .f32⟩
  | .hbm, ⟨15, _⟩ => ⟨S4x100x640, .f32⟩
  | .hbm, ⟨16, _⟩ => ⟨S4x512x1x640, .f32⟩
  | .hbm, ⟨17, _⟩ => ⟨S4x1x100x640, .f32⟩
  | .hbm, ⟨18, _⟩ => ⟨S4x512x100x640, .f32⟩
  | .hbm, ⟨19, _⟩ => ⟨S4x512x100x640, .f32⟩
  | .hbm, ⟨20, _⟩ => ⟨S4x512x100x640, .f32⟩
  | .hbm, ⟨21, _⟩ => ⟨S4x512x100x640, .f32⟩
  | .hbm, ⟨22, _⟩ => ⟨S4x512x100x512, .f32⟩
  | .hbm, ⟨23, _⟩ => ⟨S1x1x1x512, .f32⟩
  | .hbm, ⟨24, _⟩ => ⟨S4x512x100x512, .f32⟩
  | .hbm, ⟨25, _⟩ => ⟨S4x512x100x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S4x512x640_0_1_2 : S1x1x640.BroadcastsInDim S4x512x640 (![0, 1, 2] : Fin 3 → Fin S4x512x640.rank)
  bcast_S1x1x640_S4x100x640_0_1_2 : S1x1x640.BroadcastsInDim S4x100x640 (![0, 1, 2] : Fin 3 → Fin S4x100x640.rank)
  bcast_S4x512x640_S4x512x1x640_0_1_3 : S4x512x640.BroadcastsInDim S4x512x1x640 (![0, 1, 3] : Fin 3 → Fin S4x512x1x640.rank)
  bcast_S4x100x640_S4x1x100x640_0_2_3 : S4x100x640.BroadcastsInDim S4x1x100x640 (![0, 2, 3] : Fin 3 → Fin S4x1x100x640.rank)
  bcast_S4x512x1x640_S4x512x100x640_0_1_2_3 : S4x512x1x640.BroadcastsInDim S4x512x100x640 (![0, 1, 2, 3] : Fin 4 → Fin S4x512x100x640.rank)
  bcast_S4x1x100x640_S4x512x100x640_0_1_2_3 : S4x1x100x640.BroadcastsInDim S4x512x100x640 (![0, 1, 2, 3] : Fin 4 → Fin S4x512x100x640.rank)
  bcast_S512_S1x1x1x512_3 : S512.BroadcastsInDim S1x1x1x512 (![3] : Fin 1 → Fin S1x1x1x512.rank)
  bcast_S1x1x1x512_S4x512x100x512_0_1_2_3 : S1x1x1x512.BroadcastsInDim S4x512x100x512 (![0, 1, 2, 3] : Fin 4 → Fin S4x512x100x512.rank)
  dot_S4x512x512_S512x640_S4x512x640_2_0_01_1_n_n_wf : DotDims.WF S4x512x512 S512x640 S4x512x640 [2] [0] [0, 1] [1] [] []
  dot_S4x100x320_S320x640_S4x100x640_2_0_01_1_n_n_wf : DotDims.WF S4x100x320 S320x640 S4x100x640 [2] [0] [0, 1] [1] [] []
  dot_S4x512x100x640_S640x512_S4x512x100x512_3_0_012_1_n_n_wf : DotDims.WF S4x512x100x640 S640x512 S4x512x100x512 [3] [0] [0, 1, 2] [1] [] []

variable [Facts₀]

def dot_S4x512x512_S512x640_S4x512x640_2_0_01_1_n_n : DotDims S4x512x512 S512x640 S4x512x640 where
  lhsContracting := [2]
  rhsContracting := [0]
  lhsNonContracting := [0, 1]
  rhsNonContracting := [1]
  lhsBatch := []
  rhsBatch := []
  wf := dot_S4x512x512_S512x640_S4x512x640_2_0_01_1_n_n_wf
def dot_S4x100x320_S320x640_S4x100x640_2_0_01_1_n_n : DotDims S4x100x320 S320x640 S4x100x640 where
  lhsContracting := [2]
  rhsContracting := [0]
  lhsNonContracting := [0, 1]
  rhsNonContracting := [1]
  lhsBatch := []
  rhsBatch := []
  wf := dot_S4x100x320_S320x640_S4x100x640_2_0_01_1_n_n_wf
def dot_S4x512x100x640_S640x512_S4x512x100x512_3_0_012_1_n_n : DotDims S4x512x100x640 S640x512 S4x512x100x512 where
  lhsContracting := [3]
  rhsContracting := [0]
  lhsNonContracting := [0, 1, 2]
  rhsNonContracting := [1]
  lhsBatch := []
  rhsBatch := []
  wf := dot_S4x512x100x640_S640x512_S4x512x100x512_3_0_012_1_n_n_wf

class Facts : Prop extends Facts₀ where

variable [Facts]
-- ==== Proof.Spec.lean ====
/-
  The joint network on extended reals, one output entry at a time, and the one law the blocked kernel needs.

  For a batch entry, an audio frame and a text position, the network projects the audio features and the text
  features affinely onto 640 hidden units, adds the two projections, applies tanh, and maps the 640 activations
  affinely onto 512 classes. The kernel visits the hidden units in five consecutive blocks of 128 and accumulates the
  blocks' contributions from zero, in block order; over the extended reals addition is commutative and associative,
  so the accumulated value is the whole sum over the 640 units (`running_last`), with no finiteness needed.
-/
import Idealize.ShloMosaic.PureOps.Ideal
import Mathlib.Algebra.BigOperators.Fin
import Mathlib.Logic.Equiv.Fin.Basic

noncomputable section

open scoped BigOperators
open Idealize.ShloMosaic

namespace JointNet

/-- The affine projection of a feature row onto hidden unit `h`: `row · W[:, h] + bias[h]`. -/
def proj {K : Nat} (row : Fin K → EReal) (W : Fin K → Fin 640 → EReal) (bias : Fin 640 → EReal) (h : Fin 640) : EReal :=
  (∑ x : Fin K, row x * W x h) + bias h

/-- Hidden unit `h`'s contribution to class `v`: the tanh of the two projections' sum, times the class weight. -/
def term (a t : Fin 640 → EReal) (Wj : Fin 640 → Fin 512 → EReal) (v : Fin 512) (h : Fin 640) : EReal :=
  Ideal.tanh (a h + t h) * Wj h v

/-- The class-`v` output: all 640 contributions, plus the class bias. -/
def logit (a t : Fin 640 → EReal) (Wj : Fin 640 → Fin 512 → EReal) (bj : Fin 512 → EReal) (v : Fin 512) : EReal :=
  (∑ h : Fin 640, term a t Wj v h) + bj v

/-- Hidden unit `k` of block `j`: unit `128 j + k`. -/
def hid (j : Fin 5) (k : Fin 128) : Fin 640 := ⟨128 * j.val + k.val, by have := j.isLt; have := k.isLt; omega⟩

/-- The contributions of block `j`'s 128 units, summed. -/
def blockSum (f : Fin 640 → EReal) (j : Fin 5) : EReal := ∑ k : Fin 128, f (hid j k)

/-- The accumulator after block `n`: blocks `0 … n` added in order. -/
def running (f : Fin 640 → EReal) : (n : Nat) → n < 5 → EReal
  | 0, h => blockSum f ⟨0, h⟩
  | n + 1, h => running f n (Nat.lt_of_succ_lt h) + blockSum f ⟨n + 1, h⟩

theorem running_zero (f : Fin 640 → EReal) (h : 0 < 5) : running f 0 h = blockSum f ⟨0, h⟩ := rfl

theorem running_succ (f : Fin 640 → EReal) (n : Nat) (h : n + 1 < 5) :
    running f (n + 1) h = running f n (Nat.lt_of_succ_lt h) + blockSum f ⟨n + 1, h⟩ := rfl

/-- At block 0 the accumulator is that block's sum (the block number given up to an equation). -/
theorem running_of_eq_zero (f : Fin 640 → EReal) (k : Nat) (hk : k < 5) (h0 : k = 0) :
    running f k hk = blockSum f ⟨k, hk⟩ := by
  subst h0; rfl

/-- At a later block it is the accumulator after the block before, plus the block's sum. -/
theorem running_of_eq_succ (f : Fin 640 → EReal) (k j : Nat) (hk : k < 5) (hj : j < 5) (h : k = j + 1) :
    running f k hk = running f j hj + blockSum f ⟨k, hk⟩ := by
  subst h; rfl

/-- The five block sums together are the sum over all 640 units: a unit is (block, position in block). -/
theorem sum_blocks (f : Fin 640 → EReal) : ∑ j : Fin 5, blockSum f j = ∑ h : Fin 640, f h := by
  unfold blockSum
  rw [← Fintype.sum_prod_type' (f := fun (j : Fin 5) (k : Fin 128) => f (hid j k))]
  refine Fintype.sum_equiv (finProdFinEquiv : Fin 5 × Fin 128 ≃ Fin 640) _ _ (fun p => congrArg f (Fin.ext ?_))
  show 128 * p.1.val + p.2.val = p.2.val + 128 * p.1.val
  omega

/-- After the last block the accumulator holds the whole sum. -/
theorem running_last (f : Fin 640 → EReal) : running f 4 (by decide) = ∑ h : Fin 640, f h := by
  rw [← sum_blocks, Fin.sum_univ_five]
  rfl

end JointNet

end
-- ==== Proof.Products.lean ====
/-
  One grid point's arithmetic, read at an index.

  At a grid point the kernel holds a 32-frame block of audio features, the 104 (padded) text positions of one batch
  entry, and the columns of the two projection matrices and the rows of the class matrix that belong to one block of
  128 hidden units. It computes both projections restricted to that block, the tanh of their broadcast sum, and the
  product of those activations with the block's rows of the class matrix: for frame `r`, text position `u` and class
  `v` that is the block's part of the class-`v` output,
    ∑ₖ tanh ((∑ₓ audio[r, x] · Wa[x, k] + ba[k]) + (∑ₓ text[u, x] · Wt[x, k] + bt[k])) · Wj[k, v].
  The narrowing to bf16 before each product is the identity on extended reals, and a product into a zero accumulator
  is the plain sum over the contracted axis.
-/
import proofs.«113914_j48988396978795_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Point

open Cert.KernelIdeal Cert.KernelIdeal.Gen

/-! ## The three products: operand indices at an output index and a contraction position -/

theorem lhs_a_0 (i : S32x128.Idx) (q : dot_S32x512_S512x128_S32x128_1_0_0_1_n_n.contr.Idx) :
    (dot_S32x512_S512x128_S32x128_1_0_0_1_n_n.lhsIdx i q 0).val = (i 0).val := by
  unfold DotDims.lhsIdx
  rw [dif_neg (show ¬(0 : Fin S32x512.rank) ∈ dot_S32x512_S512x128_S32x128_1_0_0_1_n_n.lhsBatch by decide), dif_pos (show (0 : Fin S32x512.rank) ∈ dot_S32x512_S512x128_S32x128_1_0_0_1_n_n.lhsNonContracting by decide)]
  rfl
theorem lhs_a_1 (i : S32x128.Idx) (q : dot_S32x512_S512x128_S32x128_1_0_0_1_n_n.contr.Idx) :
    (dot_S32x512_S512x128_S32x128_1_0_0_1_n_n.lhsIdx i q 1).val = (q ⟨0, by decide⟩).val :=
  dot_S32x512_S512x128_S32x128_1_0_0_1_n_n.lhsIdx_val_of_single rfl i q
theorem rhs_a_0 (i : S32x128.Idx) (q : dot_S32x512_S512x128_S32x128_1_0_0_1_n_n.contr.Idx) :
    (dot_S32x512_S512x128_S32x128_1_0_0_1_n_n.rhsIdx i q 0).val = (q ⟨0, by decide⟩).val :=
  dot_S32x512_S512x128_S32x128_1_0_0_1_n_n.rhsIdx_val_of_single rfl i q
theorem rhs_a_1 (i : S32x128.Idx) (q : dot_S32x512_S512x128_S32x128_1_0_0_1_n_n.contr.Idx) :
    (dot_S32x512_S512x128_S32x128_1_0_0_1_n_n.rhsIdx i q 1).val = (i 1).val := by
  unfold DotDims.rhsIdx
  rw [dif_neg (show ¬(1 : Fin S512x128.rank) ∈ dot_S32x512_S512x128_S32x128_1_0_0_1_n_n.rhsBatch by decide), dif_pos (show (1 : Fin S512x128.rank) ∈ dot_S32x512_S512x128_S32x128_1_0_0_1_n_n.rhsNonContracting by decide)]
  rfl

/-- The audio product into zero: entry (r, k) is the sum over the 512 audio features. -/
theorem audioProd_apply (l : FVec Ideal S32x512 .bf16) (w : FVec Ideal S512x128 .bf16) (r : Fin 32) (k : Fin 128) :
    matmul dot_S32x512_S512x128_S32x128_1_0_0_1_n_n none l w (constant (F := Ideal) S32x128 .f32 0x00000000#32) (ix2 r k)
      = ∑ x : Fin 512, l (ix2 r x) * w (ix2 x k) := by
  show FloatOps.matmul dot_S32x512_S512x128_S32x128_1_0_0_1_n_n none l w (constant (F := Ideal) S32x128 .f32 0x00000000#32) (ix2 r k) = _
  rw [Ideal.matmul_constant_zero_apply, ← Equiv.sum_comp (contrEquiv1 dot_S32x512_S512x128_S32x128_1_0_0_1_n_n 512 rfl rfl).symm]
  refine Finset.sum_congr rfl fun x _ => ?_
  have hk := contrEquiv1_symm_val dot_S32x512_S512x128_S32x128_1_0_0_1_n_n 512 rfl rfl x
  have el : dot_S32x512_S512x128_S32x128_1_0_0_1_n_n.lhsIdx (ix2 r k) ((contrEquiv1 dot_S32x512_S512x128_S32x128_1_0_0_1_n_n 512 rfl rfl).symm x) = ix2 r x := funext fun a => Fin.ext (by
    match a with
    | ⟨0, _⟩ => exact lhs_a_0 _ _
    | ⟨1, _⟩ => exact (lhs_a_1 _ _).trans hk)
  have er : dot_S32x512_S512x128_S32x128_1_0_0_1_n_n.rhsIdx (ix2 r k) ((contrEquiv1 dot_S32x512_S512x128_S32x128_1_0_0_1_n_n 512 rfl rfl).symm x) = ix2 x k := funext fun a => Fin.ext (by
    match a with
    | ⟨0, _⟩ => exact (rhs_a_0 _ _).trans hk
    | ⟨1, _⟩ => exact rhs_a_1 _ _)
  rw [el, er]

theorem lhs_t_0 (i : S104x128.Idx) (q : dot_S104x320_S320x128_S104x128_1_0_0_1_n_n.contr.Idx) :
    (dot_S104x320_S320x128_S104x128_1_0_0_1_n_n.lhsIdx i q 0).val = (i 0).val := by
  unfold DotDims.lhsIdx
  rw [dif_neg (show ¬(0 : Fin S104x320.rank) ∈ dot_S104x320_S320x128_S104x128_1_0_0_1_n_n.lhsBatch by decide), dif_pos (show (0 : Fin S104x320.rank) ∈ dot_S104x320_S320x128_S104x128_1_0_0_1_n_n.lhsNonContracting by decide)]
  rfl
theorem lhs_t_1 (i : S104x128.Idx) (q : dot_S104x320_S320x128_S104x128_1_0_0_1_n_n.contr.Idx) :
    (dot_S104x320_S320x128_S104x128_1_0_0_1_n_n.lhsIdx i q 1).val = (q ⟨0, by decide⟩).val :=
  dot_S104x320_S320x128_S104x128_1_0_0_1_n_n.lhsIdx_val_of_single rfl i q
theorem rhs_t_0 (i : S104x128.Idx) (q : dot_S104x320_S320x128_S104x128_1_0_0_1_n_n.contr.Idx) :
    (dot_S104x320_S320x128_S104x128_1_0_0_1_n_n.rhsIdx i q 0).val = (q ⟨0, by decide⟩).val :=
  dot_S104x320_S320x128_S104x128_1_0_0_1_n_n.rhsIdx_val_of_single rfl i q
theorem rhs_t_1 (i : S104x128.Idx) (q : dot_S104x320_S320x128_S104x128_1_0_0_1_n_n.contr.Idx) :
    (dot_S104x320_S320x128_S104x128_1_0_0_1_n_n.rhsIdx i q 1).val = (i 1).val := by
  unfold DotDims.rhsIdx
  rw [dif_neg (show ¬(1 : Fin S320x128.rank) ∈ dot_S104x320_S320x128_S104x128_1_0_0_1_n_n.rhsBatch by decide), dif_pos (show (1 : Fin S320x128.rank) ∈ dot_S104x320_S320x128_S104x128_1_0_0_1_n_n.rhsNonContracting by decide)]
  rfl

/-- The text product into zero: entry (u, k) is the sum over the 320 text features. -/
theorem textProd_apply (l : FVec Ideal S104x320 .bf16) (w : FVec Ideal S320x128 .bf16) (u : Fin 104) (k : Fin 128) :
    matmul dot_S104x320_S320x128_S104x128_1_0_0_1_n_n none l w (constant (F := Ideal) S104x128 .f32 0x00000000#32) (ix2 u k)
      = ∑ x : Fin 320, l (ix2 u x) * w (ix2 x k) := by
  show FloatOps.matmul dot_S104x320_S320x128_S104x128_1_0_0_1_n_n none l w (constant (F := Ideal) S104x128 .f32 0x00000000#32) (ix2 u k) = _
  rw [Ideal.matmul_constant_zero_apply, ← Equiv.sum_comp (contrEquiv1 dot_S104x320_S320x128_S104x128_1_0_0_1_n_n 320 rfl rfl).symm]
  refine Finset.sum_congr rfl fun x _ => ?_
  have hk := contrEquiv1_symm_val dot_S104x320_S320x128_S104x128_1_0_0_1_n_n 320 rfl rfl x
  have el : dot_S104x320_S320x128_S104x128_1_0_0_1_n_n.lhsIdx (ix2 u k) ((contrEquiv1 dot_S104x320_S320x128_S104x128_1_0_0_1_n_n 320 rfl rfl).symm x) = ix2 u x := funext fun a => Fin.ext (by
    match a with
    | ⟨0, _⟩ => exact lhs_t_0 _ _
    | ⟨1, _⟩ => exact (lhs_t_1 _ _).trans hk)
  have er : dot_S104x320_S320x128_S104x128_1_0_0_1_n_n.rhsIdx (ix2 u k) ((contrEquiv1 dot_S104x320_S320x128_S104x128_1_0_0_1_n_n 320 rfl rfl).symm x) = ix2 x k := funext fun a => Fin.ext (by
    match a with
    | ⟨0, _⟩ => exact (rhs_t_0 _ _).trans hk
    | ⟨1, _⟩ => exact rhs_t_1 _ _)
  rw [el, er]

theorem lhs_j_0 (i : S3328x512.Idx) (q : dot_S3328x128_S128x512_S3328x512_1_0_0_1_n_n.contr.Idx) :
    (dot_S3328x128_S128x512_S3328x512_1_0_0_1_n_n.lhsIdx i q 0).val = (i 0).val := by
  unfold DotDims.lhsIdx
  rw [dif_neg (show ¬(0 : Fin S3328x128.rank) ∈ dot_S3328x128_S128x512_S3328x512_1_0_0_1_n_n.lhsBatch by decide), dif_pos (show (0 : Fin S3328x128.rank) ∈ dot_S3328x128_S128x512_S3328x512_1_0_0_1_n_n.lhsNonContracting by decide)]
  rfl
theorem lhs_j_1 (i : S3328x512.Idx) (q : dot_S3328x128_S128x512_S3328x512_1_0_0_1_n_n.contr.Idx) :
    (dot_S3328x128_S128x512_S3328x512_1_0_0_1_n_n.lhsIdx i q 1).val = (q ⟨0, by decide⟩).val :=
  dot_S3328x128_S128x512_S3328x512_1_0_0_1_n_n.lhsIdx_val_of_single rfl i q
theorem rhs_j_0 (i : S3328x512.Idx) (q : dot_S3328x128_S128x512_S3328x512_1_0_0_1_n_n.contr.Idx) :
    (dot_S3328x128_S128x512_S3328x512_1_0_0_1_n_n.rhsIdx i q 0).val = (q ⟨0, by decide⟩).val :=
  dot_S3328x128_S128x512_S3328x512_1_0_0_1_n_n.rhsIdx_val_of_single rfl i q
theorem rhs_j_1 (i : S3328x512.Idx) (q : dot_S3328x128_S128x512_S3328x512_1_0_0_1_n_n.contr.Idx) :
    (dot_S3328x128_S128x512_S3328x512_1_0_0_1_n_n.rhsIdx i q 1).val = (i 1).val := by
  unfold DotDims.rhsIdx
  rw [dif_neg (show ¬(1 : Fin S128x512.rank) ∈ dot_S3328x128_S128x512_S3328x512_1_0_0_1_n_n.rhsBatch by decide), dif_pos (show (1 : Fin S128x512.rank) ∈ dot_S3328x128_S128x512_S3328x512_1_0_0_1_n_n.rhsNonContracting by decide)]
  rfl

/-- The class product into zero: entry (p, v) is the sum over the block's 128 hidden units. -/
theorem classProd_apply (l : FVec Ideal S3328x128 .bf16) (w : FVec Ideal S128x512 .bf16) (p : Fin 3328) (v : Fin 512) :
    matmul dot_S3328x128_S128x512_S3328x512_1_0_0_1_n_n none l w (constant (F := Ideal) S3328x512 .f32 0x00000000#32) (ix2 p v)
      = ∑ k : Fin 128, l (ix2 p k) * w (ix2 k v) := by
  show FloatOps.matmul dot_S3328x128_S128x512_S3328x512_1_0_0_1_n_n none l w (constant (F := Ideal) S3328x512 .f32 0x00000000#32) (ix2 p v) = _
  rw [Ideal.matmul_constant_zero_apply, ← Equiv.sum_comp (contrEquiv1 dot_S3328x128_S128x512_S3328x512_1_0_0_1_n_n 128 rfl rfl).symm]
  refine Finset.sum_congr rfl fun k _ => ?_
  have hk := contrEquiv1_symm_val dot_S3328x128_S128x512_S3328x512_1_0_0_1_n_n 128 rfl rfl k
  have el : dot_S3328x128_S128x512_S3328x512_1_0_0_1_n_n.lhsIdx (ix2 p v) ((contrEquiv1 dot_S3328x128_S128x512_S3328x512_1_0_0_1_n_n 128 rfl rfl).symm k) = ix2 p k := funext fun a => Fin.ext (by
    match a with
    | ⟨0, _⟩ => exact lhs_j_0 _ _
    | ⟨1, _⟩ => exact (lhs_j_1 _ _).trans hk)
  have er : dot_S3328x128_S128x512_S3328x512_1_0_0_1_n_n.rhsIdx (ix2 p v) ((contrEquiv1 dot_S3328x128_S128x512_S3328x512_1_0_0_1_n_n 128 rfl rfl).symm k) = ix2 k v := funext fun a => Fin.ext (by
    match a with
    | ⟨0, _⟩ => exact (rhs_j_0 _ _).trans hk
    | ⟨1, _⟩ => exact rhs_j_1 _ _)
  rw [el, er]

end Cert.KernelIdeal.Point

end
-- ==== Proof.PartialAt.lean ====
/-
  The block's part of an output entry: the whole per-point arithmetic read at frame `r`, text position `u`, class `v`.

  The kernel lays the 32 × 104 (frame, text position) pairs out as 3328 rows, pair (r, u) at row 104 r + u, multiplies
  by the block's rows of the class matrix, and lays the rows out again as 32 × 104. Every reshape keeps the row-major
  position and every broadcast repeats along its unit axis, so entry (r, u, v) of the result is the sum over the
  block's 128 hidden units of tanh (audio projection at (r, k) + text projection at (u, k)) · Wj[k, v].
-/
import proofs.«113914_j48988396978795_1_alg».proof.Proof.Products

noncomputable section

open scoped BigOperators
open Idealize.ShloMosaic Idealize.ShloMosaic.ValueIdx

namespace Cert.KernelIdeal.Point

open Cert.KernelIdeal Cert.KernelIdeal.Gen

/-! ## The layout operations of the body, each read at an index -/

section Layout
variable {α : Type}

/-- Row 104 r + u of the 3328 (frame, text position) pairs. -/
abbrev pairRow (r : Fin 32) (u : Fin 104) : Fin 3328 := ⟨104 * r.val + u.val, by have := r.isLt; have := u.isLt; omega⟩

theorem dropAudio (a0 : S1x32x512.Idx → α) (h : S1x32x512.ShapeCasts S32x512) (r : Fin 32) (x : Fin 512) :
    shapeCast S32x512 a0 h (ix2 r x) = a0 (ix3 0 r x) :=
  shapeCast_apply a0 h (ix2 r x) (ix3 0 r x) (by
    rw [Shape.rowMajor_val_three, Shape.rowMajor_val_two]
    show ((0 : Nat) * 32 + r.val) * 512 + x.val = r.val * 512 + x.val
    omega)

theorem dropText (t0 : S1x104x320.Idx → α) (h : S1x104x320.ShapeCasts S104x320) (u : Fin 104) (x : Fin 320) :
    shapeCast S104x320 t0 h (ix2 u x) = t0 (ix3 0 u x) :=
  shapeCast_apply t0 h (ix2 u x) (ix3 0 u x) (by
    rw [Shape.rowMajor_val_three, Shape.rowMajor_val_two]
    show ((0 : Nat) * 104 + u.val) * 320 + x.val = u.val * 320 + x.val
    omega)

theorem rowsAudioBias (b : S1x128.Idx → α) (h : S1x128.Broadcasts S32x128) (r : Fin 32) (k : Fin 128) :
    broadcastTo S32x128 b h (ix2 r k) = b (ix2 0 k) :=
  broadcastTo_apply b h (ix2 r k) (ix2 0 k) (fun a => match a with
    | ⟨0, _⟩ => by show (0 : Nat) = if (1 : Nat) = 1 then 0 else r.val; rw [if_pos rfl]
    | ⟨1, _⟩ => by show k.val = if (128 : Nat) = 1 then 0 else k.val; rw [if_neg (by decide)])

theorem rowsTextBias (b : S1x128.Idx → α) (h : S1x128.Broadcasts S104x128) (u : Fin 104) (k : Fin 128) :
    broadcastTo S104x128 b h (ix2 u k) = b (ix2 0 k) :=
  broadcastTo_apply b h (ix2 u k) (ix2 0 k) (fun a => match a with
    | ⟨0, _⟩ => by show (0 : Nat) = if (1 : Nat) = 1 then 0 else u.val; rw [if_pos rfl]
    | ⟨1, _⟩ => by show k.val = if (128 : Nat) = 1 then 0 else k.val; rw [if_neg (by decide)])

theorem audioColumn (y : S32x128.Idx → α) (h : S32x128.ShapeCasts S32x1x128) (r : Fin 32) (k : Fin 128) :
    shapeCast S32x1x128 y h (ix3 r 0 k) = y (ix2 r k) :=
  shapeCast_apply y h (ix3 r 0 k) (ix2 r k) (by
    rw [Shape.rowMajor_val_three, Shape.rowMajor_val_two]
    show r.val * 128 + k.val = (r.val * 1 + 0) * 128 + k.val
    omega)

theorem audioOverText (y : S32x1x128.Idx → α) (h : S32x1x128.Broadcasts S32x104x128) (r : Fin 32) (u : Fin 104) (k : Fin 128) :
    broadcastTo S32x104x128 y h (ix3 r u k) = y (ix3 r 0 k) :=
  broadcastTo_apply y h (ix3 r u k) (ix3 r 0 k) (fun a => match a with
    | ⟨0, _⟩ => by show r.val = if (32 : Nat) = 1 then 0 else r.val; rw [if_neg (by decide)]
    | ⟨1, _⟩ => by show (0 : Nat) = if (1 : Nat) = 1 then 0 else u.val; rw [if_pos rfl]
    | ⟨2, _⟩ => by show k.val = if (128 : Nat) = 1 then 0 else k.val; rw [if_neg (by decide)])

theorem textRow (y : S104x128.Idx → α) (h : S104x128.ShapeCasts S1x104x128) (u : Fin 104) (k : Fin 128) :
    shapeCast S1x104x128 y h (ix3 0 u k) = y (ix2 u k) :=
  shapeCast_apply y h (ix3 0 u k) (ix2 u k) (by
    rw [Shape.rowMajor_val_three, Shape.rowMajor_val_two]
    show u.val * 128 + k.val = ((0 : Nat) * 104 + u.val) * 128 + k.val
    omega)

theorem textOverAudio (y : S1x104x128.Idx → α) (h : S1x104x128.Broadcasts S32x104x128) (r : Fin 32) (u : Fin 104) (k : Fin 128) :
    broadcastTo S32x104x128 y h (ix3 r u k) = y (ix3 0 u k) :=
  broadcastTo_apply y h (ix3 r u k) (ix3 0 u k) (fun a => match a with
    | ⟨0, _⟩ => by show (0 : Nat) = if (1 : Nat) = 1 then 0 else r.val; rw [if_pos rfl]
    | ⟨1, _⟩ => by show u.val = if (104 : Nat) = 1 then 0 else u.val; rw [if_neg (by decide)]
    | ⟨2, _⟩ => by show k.val = if (128 : Nat) = 1 then 0 else k.val; rw [if_neg (by decide)])

theorem pairsAsRows (y : S32x104x128.Idx → α) (h : S32x104x128.ShapeCasts S3328x128) (r : Fin 32) (u : Fin 104) (k : Fin 128) :
    shapeCast S3328x128 y h (ix2 (pairRow r u) k) = y (ix3 r u k) :=
  shapeCast_apply y h (ix2 (pairRow r u) k) (ix3 r u k) (by
    rw [Shape.rowMajor_val_three, Shape.rowMajor_val_two]
    show (r.val * 104 + u.val) * 128 + k.val = (104 * r.val + u.val) * 128 + k.val
    rw [Nat.mul_comm 104 r.val])

theorem rowsAsPairs (y : S3328x512.Idx → α) (h : S3328x512.ShapeCasts S32x104x512) (r : Fin 32) (u : Fin 104) (v : Fin 512) :
    shapeCast S32x104x512 y h (ix3 r u v) = y (ix2 (pairRow r u) v) :=
  shapeCast_apply y h (ix3 r u v) (ix2 (pairRow r u) v) (by
    rw [Shape.rowMajor_val_three, Shape.rowMajor_val_two]
    show (104 * r.val + u.val) * 512 + v.val = (r.val * 104 + u.val) * 512 + v.val
    rw [Nat.mul_comm 104 r.val])

end Layout

/-- The pointwise tanh of a vector, at an index. -/
theorem tanh_apply {s : Shape} {φ : FTy} (x : FVec Ideal s φ) (i : s.Idx) : tanh x i = Ideal.tanh (x i) := rfl

/-! ## The block's part of an output entry -/

/-- Entry (r, u, v) of the per-point product: the block's 128 hidden units' contributions. -/
theorem partial_apply (a0 : Vec Ideal S1x32x512 .f32) (wa : Vec Ideal S512x128 .f32) (ba : Vec Ideal S1x128 .f32)
    (t0 : Vec Ideal S1x104x320 .f32) (wt : Vec Ideal S320x128 .f32) (bt : Vec Ideal S1x128 .f32) (wj : Vec Ideal S128x512 .f32)
    (r : Fin 32) (u : Fin 104) (v : Fin 512) :
    k0_pay3 (F := Ideal) a0 wa ba t0 wt bt wj (ix3 r u v)
      = ∑ k : Fin 128, Ideal.tanh (((∑ x : Fin 512, a0 (ix3 0 r x) * wa (ix2 x k)) + ba (ix2 0 k))
          + ((∑ x : Fin 320, t0 (ix3 0 u x) * wt (ix2 x k)) + bt (ix2 0 k))) * wj (ix2 k v) := by
  unfold k0_pay3
  rw [rowsAsPairs, classProd_apply]
  refine Finset.sum_congr rfl fun k _ => ?_
  rw [truncf_apply, truncf_apply, pairsAsRows, tanh_apply, addf_apply, audioOverText, textOverAudio, audioColumn, textRow,
    addf_apply, addf_apply, audioProd_apply, textProd_apply, rowsAudioBias, rowsTextBias, shapeCast_self, shapeCast_self]
  simp only [truncf_apply, dropAudio, dropText]

end Cert.KernelIdeal.Point

end
-- ==== Proof.Pieces.lean ====
/-
  What each control case of the body leaves in the output's staging buffer.

  The body always adds the point's partial product to the buffer. At the first hidden block it zeroes the buffer first,
  so it leaves zero + partial; at a middle block it leaves previous + partial; at the last block it then adds the
  class bias, leaving (previous + partial) + bias. Each case's last store covers the whole buffer, so what is left is
  that store's value, and a load of the buffer after an earlier covering store reads that store's value.
-/
import proofs.«113914_j48988396978795_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Point

open Cert.KernelIdeal Cert.KernelIdeal.Gen

variable {F : FTy → Type} [FloatOps F]

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-- The point's partial product as a function of the point's seven input blocks (audio, text, then the two
    projections' weights and biases and the class weights, each restricted to the hidden block). -/
abbrev partialOf (x0 : Vec F S1x32x512 .f32) (x1 : Vec F S1x104x320 .f32) (x2 : Vec F S512x128 .f32) (x3 : Vec F S1x128 .f32)
    (x4 : Vec F S320x128 .f32) (x5 : Vec F S1x128 .f32) (x6 : Vec F S128x512 .f32) : FVec F S32x104x512 .f32 :=
  k0_pay3 x0 x2 x3 x1 x4 x5 x6

/-- A middle hidden block: previous contents plus the partial product. -/
theorem left_middle (c : Dev nD) (i : grid0.Coords) (arg3 : Memref sig .tc .vmem S1x32x512 .f32) (harg3 : arg3.IsWhole) (arg4 : Memref sig .tc .vmem S1x104x320 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S320x128 .f32) (harg7 : arg7.IsWhole) (arg8 : Memref sig .tc .vmem S1x128 .f32) (harg8 : arg8.IsWhole) (arg9 : Memref sig .tc .vmem S128x512 .f32) (harg9 : arg9.IsWhole) (arg10 : Memref sig .tc .vmem S1x512 .f32) (harg10 : arg10.IsWhole) (arg11 : Memref sig .tc .vmem S1x32x104x512 .f32) (harg11 : arg11.IsWhole) (hc0 : ¬cond0_0 i) (hc1 : ¬cond0_1 i) (x0 : Vec F S1x32x512 .f32) (x1 : Vec F S1x104x320 .f32) (x2 : Vec F S512x128 .f32) (x3 : Vec F S1x128 .f32) (x4 : Vec F S320x128 .f32) (x5 : Vec F S1x128 .f32) (x6 : Vec F S128x512 .f32) (x7 : Vec F S1x512 .f32) (xo8 : Vec F S1x32x104x512 .f32) :
    out0_B_8 c i arg3 harg3 arg4 harg4 arg5 harg5 arg6 harg6 arg7 harg7 arg8 harg8 arg9 harg9 arg10 harg10 arg11 harg11 hc0 hc1 x0 x1 x2 x3 x4 x5 x6 x7 xo8 = k0_pay1 (partialOf x0 x1 x2 x3 x4 x5 x6) xo8 := by
  unfold out0_B_8
  rw [View.read_writes_eq_canon _ _ _ (cover0_B_8 c i arg3 harg3 arg4 harg4 arg5 harg5 arg6 harg6 arg7 harg7 arg8 harg8 arg9 harg9 arg10 harg10 arg11 harg11 hc0 hc1 x0 x1 x2 x3 x4 x5 x6 x7 xo8)]
  unfold kernelRun0_B
  dsimp only
  sl_unfold_words
  rw [View.canon_unit_zero zeros4]
  simp only [View.readAt_eq_ld, harg3.read_unread, harg4.read_unread, harg5.read_unread, harg6.read_unread, harg7.read_unread,
    harg8.read_unread, harg9.read_unread, harg11.read_unread, View.ld_unit_zero (S := S1x32x512) zeros3,
    View.ld_unit_zero (S := S1x104x320) zeros3, View.ld_unit_zero (S := S512x128) zeros2, View.ld_unit_zero (S := S1x128) zeros2,
    View.ld_unit_zero (S := S320x128) zeros2, View.ld_unit_zero (S := S128x512) zeros2, View.ld_unit_zero (S := S1x32x104x512) zeros4]

/-- The first hidden block: the zero block plus the partial product. -/
theorem left_first (c : Dev nD) (i : grid0.Coords) (arg3 : Memref sig .tc .vmem S1x32x512 .f32) (harg3 : arg3.IsWhole) (arg4 : Memref sig .tc .vmem S1x104x320 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S320x128 .f32) (harg7 : arg7.IsWhole) (arg8 : Memref sig .tc .vmem S1x128 .f32) (harg8 : arg8.IsWhole) (arg9 : Memref sig .tc .vmem S128x512 .f32) (harg9 : arg9.IsWhole) (arg10 : Memref sig .tc .vmem S1x512 .f32) (harg10 : arg10.IsWhole) (arg11 : Memref sig .tc .vmem S1x32x104x512 .f32) (harg11 : arg11.IsWhole) (hc0 : cond0_0 i) (hc1 : ¬cond0_1 i) (x0 : Vec F S1x32x512 .f32) (x1 : Vec F S1x104x320 .f32) (x2 : Vec F S512x128 .f32) (x3 : Vec F S1x128 .f32) (x4 : Vec F S320x128 .f32) (x5 : Vec F S1x128 .f32) (x6 : Vec F S128x512 .f32) (x7 : Vec F S1x512 .f32) :
    out0_A_8 c i arg3 harg3 arg4 harg4 arg5 harg5 arg6 harg6 arg7 harg7 arg8 harg8 arg9 harg9 arg10 harg10 arg11 harg11 hc0 hc1 x0 x1 x2 x3 x4 x5 x6 x7 = k0_pay1 (partialOf x0 x1 x2 x3 x4 x5 x6) k0_pay4 := by
  unfold out0_A_8
  rw [View.read_writes_eq_canon _ _ _ (cover0_A_8 c i arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1x32x104x512) zeros4, View.readCov_unit_zero (S := S1x32x104x512) _ zeros4]
  simp only [View.readAt_eq_ld, harg3.read_unread, harg4.read_unread, harg5.read_unread, harg6.read_unread, harg7.read_unread,
    harg8.read_unread, harg9.read_unread, View.ld_unit_zero (S := S1x32x512) zeros3,
    View.ld_unit_zero (S := S1x104x320) zeros3, View.ld_unit_zero (S := S512x128) zeros2, View.ld_unit_zero (S := S1x128) zeros2,
    View.ld_unit_zero (S := S320x128) zeros2, View.ld_unit_zero (S := S128x512) zeros2]

/-- The last hidden block: previous contents plus the partial product, then plus the class bias. -/
theorem left_last (c : Dev nD) (i : grid0.Coords) (arg3 : Memref sig .tc .vmem S1x32x512 .f32) (harg3 : arg3.IsWhole) (arg4 : Memref sig .tc .vmem S1x104x320 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S320x128 .f32) (harg7 : arg7.IsWhole) (arg8 : Memref sig .tc .vmem S1x128 .f32) (harg8 : arg8.IsWhole) (arg9 : Memref sig .tc .vmem S128x512 .f32) (harg9 : arg9.IsWhole) (arg10 : Memref sig .tc .vmem S1x512 .f32) (harg10 : arg10.IsWhole) (arg11 : Memref sig .tc .vmem S1x32x104x512 .f32) (harg11 : arg11.IsWhole) (hc0 : ¬cond0_0 i) (hc1 : cond0_1 i) (x0 : Vec F S1x32x512 .f32) (x1 : Vec F S1x104x320 .f32) (x2 : Vec F S512x128 .f32) (x3 : Vec F S1x128 .f32) (x4 : Vec F S320x128 .f32) (x5 : Vec F S1x128 .f32) (x6 : Vec F S128x512 .f32) (x7 : Vec F S1x512 .f32) (xo8 : Vec F S1x32x104x512 .f32) :
    out0_C_8 c i arg3 harg3 arg4 harg4 arg5 harg5 arg6 harg6 arg7 harg7 arg8 harg8 arg9 harg9 arg10 harg10 arg11 harg11 hc0 hc1 x0 x1 x2 x3 x4 x5 x6 x7 xo8 = k0_pay2 x7 (k0_pay1 (partialOf x0 x1 x2 x3 x4 x5 x6) xo8) := by
  unfold out0_C_8
  rw [View.read_writes_eq_canon _ _ _ (cover0_C_8 c i arg3 harg3 arg4 harg4 arg5 harg5 arg6 harg6 arg7 harg7 arg8 harg8 arg9 harg9 arg10 harg10 arg11 harg11 hc0 hc1 x0 x1 x2 x3 x4 x5 x6 x7 xo8)]
  unfold kernelRun0_C
  dsimp only
  sl_unfold_words
  rw [View.canon_cons_unit_zero (S := S1x32x104x512) zeros4, View.readCov_unit_zero (S := S1x32x104x512) _ zeros4]
  simp only [View.readAt_eq_ld, harg3.read_unread, harg4.read_unread, harg5.read_unread, harg6.read_unread, harg7.read_unread,
    harg8.read_unread, harg9.read_unread, harg10.read_unread, harg11.read_unread, View.ld_unit_zero (S := S1x32x512) zeros3,
    View.ld_unit_zero (S := S1x104x320) zeros3, View.ld_unit_zero (S := S512x128) zeros2, View.ld_unit_zero (S := S1x128) zeros2,
    View.ld_unit_zero (S := S320x128) zeros2, View.ld_unit_zero (S := S128x512) zeros2, View.ld_unit_zero (S := S1x512) zeros2,
    View.ld_unit_zero (S := S1x32x104x512) zeros4]

end Cert.KernelIdeal.Point

end
-- ==== Proof.BlockReads.lean ====
/-
  The input blocks of a grid point, read where they sit in their arrays.

  The grid has 4 · 16 · 5 = 320 points; point `t` works on batch entry `t / 80`, on the 32 audio frames of tile
  `(t / 5) % 16`, and on hidden block `t % 5` (128 units). The audio block is that tile of that batch entry, the text
  block is all 104 padded text positions of the batch entry, the two projections' weight and bias blocks are the hidden
  block's columns, the class weights' block is the hidden block's rows, and the class bias is taken whole.
-/
import proofs.«113914_j48988396978795_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Point

open Cert.KernelIdeal Cert.KernelIdeal.Gen

variable {F : FTy → Type} [FloatOps F]
variable (m : (ℓ : Loc nD τ sig) → Buf (Elt F) ℓ)

theorem points : cfg0.N = 320 := N_0

/-! ## A point's batch entry, frame tile and hidden block -/

/-- The batch entry of point `t`. -/
def batchOf (t : Fin cfg0.N) : Fin 4 := ⟨t.val / 80, by have := t.isLt; have := points; omega⟩
/-- Frame `r` of point `t`'s tile, as a frame of the batch entry. -/
def frameOf (t : Fin cfg0.N) (r : Fin 32) : Fin 512 := ⟨32 * ((t.val / 5) % 16) + r.val, by have := r.isLt; omega⟩
/-- Unit `k` of point `t`'s hidden block, as one of the 640 hidden units. -/
def unitOf (t : Fin cfg0.N) (k : Fin 128) : Fin 640 := ⟨128 * (t.val % 5) + k.val, by have := k.isLt; omega⟩

/-! ## The block index maps, decided over the grid -/

theorem audioIndex : ∀ t : Fin cfg0.N, win0_0.index t 0 = t.val / 80 ∧ win0_0.index t 1 = (t.val / 5) % 16 ∧ win0_0.index t 2 = 0 :=
  (by decide +kernel : ∀ t : Fin grid0.N, win0_0.index t 0 = t.val / 80 ∧ win0_0.index t 1 = (t.val / 5) % 16 ∧ win0_0.index t 2 = 0)
theorem textIndex : ∀ t : Fin cfg0.N, win0_1.index t 0 = t.val / 80 ∧ win0_1.index t 1 = 0 ∧ win0_1.index t 2 = 0 :=
  (by decide +kernel : ∀ t : Fin grid0.N, win0_1.index t 0 = t.val / 80 ∧ win0_1.index t 1 = 0 ∧ win0_1.index t 2 = 0)
theorem waIndex : ∀ t : Fin cfg0.N, win0_2.index t 0 = 0 ∧ win0_2.index t 1 = t.val % 5 :=
  (by decide +kernel : ∀ t : Fin grid0.N, win0_2.index t 0 = 0 ∧ win0_2.index t 1 = t.val % 5)
theorem baIndex : ∀ t : Fin cfg0.N, win0_3.index t 0 = 0 ∧ win0_3.index t 1 = t.val % 5 :=
  (by decide +kernel : ∀ t : Fin grid0.N, win0_3.index t 0 = 0 ∧ win0_3.index t 1 = t.val % 5)
theorem wtIndex : ∀ t : Fin cfg0.N, win0_4.index t 0 = 0 ∧ win0_4.index t 1 = t.val % 5 :=
  (by decide +kernel : ∀ t : Fin grid0.N, win0_4.index t 0 = 0 ∧ win0_4.index t 1 = t.val % 5)
theorem btIndex : ∀ t : Fin cfg0.N, win0_5.index t 0 = 0 ∧ win0_5.index t 1 = t.val % 5 :=
  (by decide +kernel : ∀ t : Fin grid0.N, win0_5.index t 0 = 0 ∧ win0_5.index t 1 = t.val % 5)
theorem wjIndex : ∀ t : Fin cfg0.N, win0_6.index t 0 = t.val % 5 ∧ win0_6.index t 1 = 0 :=
  (by decide +kernel : ∀ t : Fin grid0.N, win0_6.index t 0 = t.val % 5 ∧ win0_6.index t 1 = 0)
theorem bjIndex : ∀ t : Fin cfg0.N, win0_7.index t 0 = 0 ∧ win0_7.index t 1 = 0 :=
  (by decide +kernel : ∀ t : Fin grid0.N, win0_7.index t 0 = 0 ∧ win0_7.index t 1 = 0)
theorem outIndex : ∀ t : Fin cfg0.N, win0_8.index t 0 = t.val / 80 ∧ win0_8.index t 1 = (t.val / 5) % 16 ∧ win0_8.index t 2 = 0 ∧ win0_8.index t 3 = 0 :=
  (by decide +kernel : ∀ t : Fin grid0.N, win0_8.index t 0 = t.val / 80 ∧ win0_8.index t 1 = (t.val / 5) % 16 ∧ win0_8.index t 2 = 0 ∧ win0_8.index t 3 = 0)

/-! ## The arrays as the region finds them, and the point's blocks, at their literal shapes -/

abbrev audioArr (c : Dev nD) : Vec F S4x512x512 .f32 := V m c main_arg0
abbrev textArr (c : Dev nD) : Vec F S4x104x320 .f32 := V m c main_v0
abbrev waArr (c : Dev nD) : Vec F S512x640 .f32 := V m c main_arg2
abbrev baArr (c : Dev nD) : Vec F S1x640 .f32 := V m c main_v1
abbrev wtArr (c : Dev nD) : Vec F S320x640 .f32 := V m c main_arg4
abbrev btArr (c : Dev nD) : Vec F S1x640 .f32 := V m c main_v2
abbrev wjArr (c : Dev nD) : Vec F S640x512 .f32 := V m c main_arg6
abbrev bjArr (c : Dev nD) : Vec F S1x512 .f32 := V m c main_v3

abbrev audioBlk (c : Dev nD) (t : Fin cfg0.N) : Vec F S1x32x512 .f32 := iblk m c 0 t
abbrev textBlk (c : Dev nD) (t : Fin cfg0.N) : Vec F S1x104x320 .f32 := iblk m c 1 t
abbrev waBlk (c : Dev nD) (t : Fin cfg0.N) : Vec F S512x128 .f32 := iblk m c 2 t
abbrev baBlk (c : Dev nD) (t : Fin cfg0.N) : Vec F S1x128 .f32 := iblk m c 3 t
abbrev wtBlk (c : Dev nD) (t : Fin cfg0.N) : Vec F S320x128 .f32 := iblk m c 4 t
abbrev btBlk (c : Dev nD) (t : Fin cfg0.N) : Vec F S1x128 .f32 := iblk m c 5 t
abbrev wjBlk (c : Dev nD) (t : Fin cfg0.N) : Vec F S128x512 .f32 := iblk m c 6 t
abbrev bjBlk (c : Dev nD) (t : Fin cfg0.N) : Vec F S1x512 .f32 := iblk m c 7 t

/-! ## Each block at an index is its array at the index the block's position gives -/

theorem audioBlk_apply (c : Dev nD) (t : Fin cfg0.N) (r : Fin 32) (x : Fin 512) :
    audioBlk m c t (ix3 0 r x) = audioArr m c (ix3 (batchOf t) (frameOf t r) x) := by
  unfold audioBlk audioArr iblk
  rw [View.read_apply]
  show V m c main_arg0 _ = V m c main_arg0 _
  congr 1
  funext a
  apply Fin.ext
  match a with
  | ⟨0, _⟩ => show win0_0.index t 0 * 1 + 1 * 0 = t.val / 80; rw [(audioIndex t).1]; omega
  | ⟨1, _⟩ => show win0_0.index t 1 * 32 + 1 * r.val = 32 * ((t.val / 5) % 16) + r.val; rw [(audioIndex t).2.1]; omega
  | ⟨2, _⟩ => show win0_0.index t 2 * 512 + 1 * x.val = x.val; rw [(audioIndex t).2.2]; omega

theorem textBlk_apply (c : Dev nD) (t : Fin cfg0.N) (u : Fin 104) (x : Fin 320) :
    textBlk m c t (ix3 0 u x) = textArr m c (ix3 (batchOf t) u x) := by
  unfold textBlk textArr iblk
  rw [View.read_apply]
  show V m c main_v0 _ = V m c main_v0 _
  congr 1
  funext a
  apply Fin.ext
  match a with
  | ⟨0, _⟩ => show win0_1.index t 0 * 1 + 1 * 0 = t.val / 80; rw [(textIndex t).1]; omega
  | ⟨1, _⟩ => show win0_1.index t 1 * 104 + 1 * u.val = u.val; rw [(textIndex t).2.1]; omega
  | ⟨2, _⟩ => show win0_1.index t 2 * 320 + 1 * x.val = x.val; rw [(textIndex t).2.2]; omega

theorem waBlk_apply (c : Dev nD) (t : Fin cfg0.N) (x : Fin 512) (k : Fin 128) :
    waBlk m c t (ix2 x k) = waArr m c (ix2 x (unitOf t k)) := by
  unfold waBlk waArr iblk
  rw [View.read_apply]
  show V m c main_arg2 _ = V m c main_arg2 _
  congr 1
  funext a
  apply Fin.ext
  match a with
  | ⟨0, _⟩ => show win0_2.index t 0 * 512 + 1 * x.val = x.val; rw [(waIndex t).1]; omega
  | ⟨1, _⟩ => show win0_2.index t 1 * 128 + 1 * k.val = 128 * (t.val % 5) + k.val; rw [(waIndex t).2]; omega

theorem baBlk_apply (c : Dev nD) (t : Fin cfg0.N) (k : Fin 128) :
    baBlk m c t (ix2 0 k) = baArr m c (ix2 0 (unitOf t k)) := by
  unfold baBlk baArr iblk
  rw [View.read_apply]
  show V m c main_v1 _ = V m c main_v1 _
  congr 1
  funext a
  apply Fin.ext
  match a with
  | ⟨0, _⟩ => show win0_3.index t 0 * 1 + 1 * 0 = 0; rw [(baIndex t).1]
  | ⟨1, _⟩ => show win0_3.index t 1 * 128 + 1 * k.val = 128 * (t.val % 5) + k.val; rw [(baIndex t).2]; omega

theorem wtBlk_apply (c : Dev nD) (t : Fin cfg0.N) (x : Fin 320) (k : Fin 128) :
    wtBlk m c t (ix2 x k) = wtArr m c (ix2 x (unitOf t k)) := by
  unfold wtBlk wtArr iblk
  rw [View.read_apply]
  show V m c main_arg4 _ = V m c main_arg4 _
  congr 1
  funext a
  apply Fin.ext
  match a with
  | ⟨0, _⟩ => show win0_4.index t 0 * 320 + 1 * x.val = x.val; rw [(wtIndex t).1]; omega
  | ⟨1, _⟩ => show win0_4.index t 1 * 128 + 1 * k.val = 128 * (t.val % 5) + k.val; rw [(wtIndex t).2]; omega

theorem btBlk_apply (c : Dev nD) (t : Fin cfg0.N) (k : Fin 128) :
    btBlk m c t (ix2 0 k) = btArr m c (ix2 0 (unitOf t k)) := by
  unfold btBlk btArr iblk
  rw [View.read_apply]
  show V m c main_v2 _ = V m c main_v2 _
  congr 1
  funext a
  apply Fin.ext
  match a with
  | ⟨0, _⟩ => show win0_5.index t 0 * 1 + 1 * 0 = 0; rw [(btIndex t).1]
  | ⟨1, _⟩ => show win0_5.index t 1 * 128 + 1 * k.val = 128 * (t.val % 5) + k.val; rw [(btIndex t).2]; omega

theorem wjBlk_apply (c : Dev nD) (t : Fin cfg0.N) (k : Fin 128) (v : Fin 512) :
    wjBlk m c t (ix2 k v) = wjArr m c (ix2 (unitOf t k) v) := by
  unfold wjBlk wjArr iblk
  rw [View.read_apply]
  show V m c main_arg6 _ = V m c main_arg6 _
  congr 1
  funext a
  apply Fin.ext
  match a with
  | ⟨0, _⟩ => show win0_6.index t 0 * 128 + 1 * k.val = 128 * (t.val % 5) + k.val; rw [(wjIndex t).1]; omega
  | ⟨1, _⟩ => show win0_6.index t 1 * 512 + 1 * v.val = v.val; rw [(wjIndex t).2]; omega

theorem bjBlk_apply (c : Dev nD) (t : Fin cfg0.N) (v : Fin 512) :
    bjBlk m c t (ix2 0 v) = bjArr m c (ix2 0 v) := by
  unfold bjBlk bjArr iblk
  rw [View.read_apply]
  show V m c main_v3 _ = V m c main_v3 _
  congr 1
  funext a
  apply Fin.ext
  match a with
  | ⟨0, _⟩ => show win0_7.index t 0 * 1 + 1 * 0 = 0; rw [(bjIndex t).1]
  | ⟨1, _⟩ => show win0_7.index t 1 * 512 + 1 * v.val = v.val; rw [(bjIndex t).2]; omega

end Cert.KernelIdeal.Point

end
-- ==== Proof.Accum.lean ====
/-
  The accumulation over the hidden blocks.

  Fix a batch entry, a frame, a text position and a class. Each of the 640 hidden units contributes
  tanh (audio projection + text projection) · class weight. Point `t` of the grid adds, for every (frame, text
  position, class) of its tile, the contributions of its hidden block's 128 units to the output buffer — starting from
  zero at the first hidden block and adding the class bias after the last. So after point `n` the buffer holds, at
  each entry, the running sum over the hidden blocks `0 … n % 5` of that entry's contributions (plus the bias when
  `n % 5 = 4`): an induction on the point, the five points of one tile sharing their batch entry and frame tile.
-/
import proofs.«113914_j48988396978795_1_alg».proof.Proof.Spec
import proofs.«113914_j48988396978795_1_alg».proof.Proof.PartialAt
import proofs.«113914_j48988396978795_1_alg».proof.Proof.Pieces
import proofs.«113914_j48988396978795_1_alg».proof.Proof.BlockReads

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Point

open Cert.KernelIdeal Cert.KernelIdeal.Gen

/-! ## The small payloads at an index -/

section Small
variable {α : Type}

theorem addLead (y : S32x104x512.Idx → α) (h : S32x104x512.ShapeCasts S1x32x104x512) (r : Fin 32) (u : Fin 104) (v : Fin 512) :
    shapeCast S1x32x104x512 y h (ix4 0 r u v) = y (ix3 r u v) :=
  shapeCast_apply y h (ix4 0 r u v) (ix3 r u v) (by
    rw [Shape.rowMajor_val_three, Shape.rowMajor_val_four]
    show (r.val * 104 + u.val) * 512 + v.val = ((((0 : Nat) * 32 + r.val) * 104 + u.val) * 512 + v.val)
    omega)

theorem dropLead (y : S1x32x104x512.Idx → α) (h : S1x32x104x512.ShapeCasts S32x104x512) (r : Fin 32) (u : Fin 104) (v : Fin 512) :
    shapeCast S32x104x512 y h (ix3 r u v) = y (ix4 0 r u v) :=
  shapeCast_apply y h (ix3 r u v) (ix4 0 r u v) (by
    rw [Shape.rowMajor_val_three, Shape.rowMajor_val_four]
    show ((((0 : Nat) * 32 + r.val) * 104 + u.val) * 512 + v.val) = (r.val * 104 + u.val) * 512 + v.val
    omega)

theorem biasLift (y : S1x512.Idx → α) (h : S1x512.ShapeCasts S1x1x512) (v : Fin 512) :
    shapeCast S1x1x512 y h (ix3 0 0 v) = y (ix2 0 v) :=
  shapeCast_apply y h (ix3 0 0 v) (ix2 0 v) (by
    rw [Shape.rowMajor_val_three, Shape.rowMajor_val_two]
    show (0 : Nat) * 512 + v.val = (((0 : Nat) * 1 + 0) * 512 + v.val)
    omega)

theorem biasOverAll (y : S1x1x512.Idx → α) (h : S1x1x512.Broadcasts S32x104x512) (r : Fin 32) (u : Fin 104) (v : Fin 512) :
    broadcastTo S32x104x512 y h (ix3 r u v) = y (ix3 0 0 v) :=
  broadcastTo_apply y h (ix3 r u v) (ix3 0 0 v) (fun a => match a with
    | ⟨0, _⟩ => by show (0 : Nat) = if (1 : Nat) = 1 then 0 else r.val; rw [if_pos rfl]
    | ⟨1, _⟩ => by show (0 : Nat) = if (1 : Nat) = 1 then 0 else u.val; rw [if_pos rfl]
    | ⟨2, _⟩ => by show v.val = if (512 : Nat) = 1 then 0 else v.val; rw [if_neg (by decide)])

end Small

/-- "Previous plus partial" at an entry. -/
theorem addPartial_apply (p : FVec Ideal S32x104x512 .f32) (o : Vec Ideal S1x32x104x512 .f32) (r : Fin 32) (u : Fin 104) (v : Fin 512) :
    k0_pay1 (F := Ideal) p o (ix4 0 r u v) = o (ix4 0 r u v) + p (ix3 r u v) := by
  unfold k0_pay1
  rw [addLead, addf_apply, dropLead]

/-- "Previous plus class bias" at an entry. -/
theorem addBias_apply (b : Vec Ideal S1x512 .f32) (o : Vec Ideal S1x32x104x512 .f32) (r : Fin 32) (u : Fin 104) (v : Fin 512) :
    k0_pay2 (F := Ideal) b o (ix4 0 r u v) = o (ix4 0 r u v) + b (ix2 0 v) := by
  unfold k0_pay2
  rw [addLead, addf_apply, dropLead, biasOverAll, shapeCast_self, biasLift, shapeCast_self]

/-- The zero block at an entry. -/
theorem zeroBlock_apply (r : Fin 32) (u : Fin 104) (v : Fin 512) : k0_pay4 (F := Ideal) (ix4 0 r u v) = 0 := by
  unfold k0_pay4
  rw [addLead]
  show Ideal.ofBits .f32 0x00000000#32 = 0
  exact Ideal.ofBits_zero_f32

/-! ## An entry's contributions, and a point's partial product as a block sum -/

variable (m : (ℓ : Loc nD τ sig) → Buf (Elt Ideal) ℓ)

/-- Hidden unit `h`'s contribution to the entry (batch `b`, frame `f`, text position `u`, class `v`), over the arrays as
    the kernel region finds them. -/
def contrib (c : Dev nD) (b : Fin 4) (f : Fin 512) (u : Fin 104) (v : Fin 512) : Fin 640 → EReal :=
  JointNet.term
    (JointNet.proj (fun x => audioArr m c (ix3 b f x)) (fun x h => waArr m c (ix2 x h)) (fun h => baArr m c (ix2 0 h)))
    (JointNet.proj (fun x => textArr m c (ix3 b u x)) (fun x h => wtArr m c (ix2 x h)) (fun h => btArr m c (ix2 0 h)))
    (fun h v => wjArr m c (ix2 h v)) v

/-- Point `t`'s partial product at (r, u, v) is its hidden block's sum of the entry's contributions. -/
theorem partial_eq (c : Dev nD) (t : Fin cfg0.N) (r : Fin 32) (u : Fin 104) (v : Fin 512) :
    partialOf (audioBlk m c t) (textBlk m c t) (waBlk m c t) (baBlk m c t) (wtBlk m c t) (btBlk m c t) (wjBlk m c t) (ix3 r u v)
      = JointNet.blockSum (contrib m c (batchOf t) (frameOf t r) u v) ⟨t.val % 5, Nat.mod_lt _ (by decide)⟩ := by
  show k0_pay3 (F := Ideal) (audioBlk m c t) (waBlk m c t) (baBlk m c t) (textBlk m c t) (wtBlk m c t) (btBlk m c t) (wjBlk m c t) (ix3 r u v) = _
  rw [partial_apply]
  unfold JointNet.blockSum contrib JointNet.term JointNet.proj
  refine Finset.sum_congr rfl fun k _ => ?_
  simp only [audioBlk_apply, textBlk_apply, waBlk_apply, baBlk_apply, wtBlk_apply, btBlk_apply, wjBlk_apply]
  rfl

/-! ## The invariant -/

/-- The class bias, present once the last hidden block is done. -/
def biasAt (c : Dev nD) (n : ℕ) (v : Fin 512) : EReal := if n % 5 = 4 then bjArr m c (ix2 0 v) else 0

/-- A point that is not first in its tile shares batch entry and frame tile with the point before. -/
theorem contrib_prev (c : Dev nD) (n : ℕ) (hn : n + 1 < cfg0.N) (h0 : ¬(n + 1) % 5 = 0) (r : Fin 32) (u : Fin 104) (v : Fin 512) :
    contrib m c (batchOf ⟨n, Nat.lt_of_succ_lt hn⟩) (frameOf ⟨n, Nat.lt_of_succ_lt hn⟩ r) u v
      = contrib m c (batchOf ⟨n + 1, hn⟩) (frameOf ⟨n + 1, hn⟩ r) u v := by
  have eb : batchOf ⟨n, Nat.lt_of_succ_lt hn⟩ = batchOf ⟨n + 1, hn⟩ := Fin.ext (by show n / 80 = (n + 1) / 80; omega)
  have ef : frameOf ⟨n, Nat.lt_of_succ_lt hn⟩ r = frameOf ⟨n + 1, hn⟩ r :=
    Fin.ext (by show 32 * ((n / 5) % 16) + r.val = 32 * (((n + 1) / 5) % 16) + r.val; omega)
  rw [eb, ef]

/-- After point `n` the output buffer holds, at each entry of the tile, the running sum of the entry's contributions over
    the hidden blocks so far, and the class bias once the last block is in. -/
theorem acc_eq (c : Dev nD) : ∀ (n : ℕ) (hn : n < cfg0.N) (r : Fin 32) (u : Fin 104) (v : Fin 512),
    outsAt0 m c n hn (ix4 0 r u v)
      = JointNet.running (contrib m c (batchOf ⟨n, hn⟩) (frameOf ⟨n, hn⟩ r) u v) (n % 5) (Nat.mod_lt _ (by decide)) + biasAt m c n v
  | 0, hn, r, u, v => by
    let t : Fin cfg0.N := ⟨0, hn⟩
    have hA := outsAt0_A m c t (Nat.zero_mod 5) (by show ¬(0 % 5 = 4); decide)
    refine (congrFun hA (ix4 0 r u v)).trans ?_
    refine (congrFun (left_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr (Nat.zero_mod 5)) (fun h => (by decide : ¬(0 % 5 = 4)) ((hcond0_1 t).mp h))
      (audioBlk m c t) (textBlk m c t) (waBlk m c t) (baBlk m c t) (wtBlk m c t) (btBlk m c t) (wjBlk m c t) (bjBlk m c t)) (ix4 0 r u v)).trans ?_
    rw [addPartial_apply, zeroBlock_apply, zero_add, partial_eq]
    unfold biasAt
    rw [if_neg (by decide), add_zero]
    exact (JointNet.running_of_eq_zero _ _ _ (Nat.zero_mod 5)).symm
  | n + 1, hn, r, u, v => by
    let t : Fin cfg0.N := ⟨n + 1, hn⟩
    have hN : n + 1 < 320 := lt_of_lt_of_eq hn points
    have ih := acc_eq c n (Nat.lt_of_succ_lt hn) r u v
    by_cases h0 : (n + 1) % 5 = 0
    · have h1 : ¬(n + 1) % 5 = 4 := by omega
      have hA := outsAt0_A m c t h0 h1
      refine (congrFun hA (ix4 0 r u v)).trans ?_
      refine (congrFun (left_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h))
        (audioBlk m c t) (textBlk m c t) (waBlk m c t) (baBlk m c t) (wtBlk m c t) (btBlk m c t) (wjBlk m c t) (bjBlk m c t)) (ix4 0 r u v)).trans ?_
      rw [addPartial_apply, zeroBlock_apply, zero_add, partial_eq]
      unfold biasAt
      rw [if_neg h1, add_zero]
      exact (JointNet.running_of_eq_zero _ _ _ h0).symm
    · have hprev : ¬n % 5 = 4 := by omega
      have hk : (n + 1) % 5 = n % 5 + 1 := by omega
      rw [contrib_prev m c n hn h0 r u v] at ih
      unfold biasAt at ih
      rw [if_neg hprev, add_zero] at ih
      by_cases h1 : (n + 1) % 5 = 4
      · have hC := outsAt0_C m c t h0 h1
        refine (congrFun hC (ix4 0 r u v)).trans ?_
        refine (congrFun (left_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1)
          (audioBlk m c t) (textBlk m c t) (waBlk m c t) (baBlk m c t) (wtBlk m c t) (btBlk m c t) (wjBlk m c t) (bjBlk m c t)
          (outsAt0 m c n (Nat.lt_of_succ_lt hn))) (ix4 0 r u v)).trans ?_
        rw [addBias_apply, addPartial_apply, partial_eq, ih, bjBlk_apply]
        unfold biasAt
        rw [if_pos h1]
        exact congrArg (· + bjArr m c (ix2 0 v)) (JointNet.running_of_eq_succ _ _ _ _ _ hk).symm
      · have hB := outsAt0_B m c t h0 h1
        refine (congrFun hB (ix4 0 r u v)).trans ?_
        refine (congrFun (left_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h))
          (audioBlk m c t) (textBlk m c t) (waBlk m c t) (baBlk m c t) (wtBlk m c t) (btBlk m c t) (wjBlk m c t) (bjBlk m c t)
          (outsAt0 m c n (Nat.lt_of_succ_lt hn))) (ix4 0 r u v)).trans ?_
        rw [addPartial_apply, partial_eq, ih]
        unfold biasAt
        rw [if_neg h1, add_zero]
        exact (JointNet.running_of_eq_succ _ _ _ _ _ hk).symm

end Cert.KernelIdeal.Point

end
-- ==== Proof.HostPrefix.lean ====
/-
  The host code before the kernel region, read at an index.

  Before the region the program pads the text features with four zero text positions per batch entry (100 → 104) and
  views each of the three bias vectors as a one-row matrix. Inside the first 100 text positions the padded array is
  the text argument, and entry (0, h) of a one-row view is entry h of the vector. The other five arrays the region
  reads are the program's arguments themselves.
-/
import proofs.«113914_j48988396978795_1_alg».proof.Proof.BlockReads
import Idealize.ShloMosaic.Lib.StableHlo.Run
import Idealize.ShloMosaic.Lib.KernelVsHost

set_option maxRecDepth 16384

noncomputable section

open Idealize.ShloMosaic Idealize.ShloMosaic.TcCoe Idealize.SL.Sem Idealize.ShloMosaic.ValueIdx Idealize.ShloMosaic.StableHlo

namespace Cert.KernelIdeal.Point

open Cert.KernelIdeal Cert.KernelIdeal.Gen

variable {F : FTy → Type} [FloatOps F]
variable (m : (ℓ : Loc nD τ sig) → Buf (Elt F) ℓ)

/-- A real text position among the 104 padded ones. -/
abbrev padPos (u : Fin 100) : Fin 104 := ⟨u.val, by have := u.isLt; omega⟩

/-- The padded text, at a real text position, is the text argument there. -/
theorem textArr_apply (c : Dev nD) (b : Fin 4) (u : Fin 100) (x : Fin 320) :
    textArr m c (ix3 b (padPos u) x) = (m ((c : Thread nD τ).loc main_arg1) : S4x100x320.Idx → Elt F .f32) (ix3 b u x) := by
  have e : (V m c main_v0 : S4x104x320.Idx → Elt F .f32)
      = pad S4x104x320 ![0, 0, 0] ![0, 4, 0] ![0, 0, 0] (m ((c : Thread nD τ).loc main_arg1))
          (sitofp .f32 (constantI S_ 32 0#32)) pads_S4x100x320_S4x104x320_000_040_000 h_S_ := by
    dsimp only [Gen.V, Gen.V0]
    simp only [Gen.hostOps0, Gen.hostOps0_1, Gen.hostOps0_2, List.flatten_cons, List.flatten_nil, List.append_nil, List.cons_append, List.nil_append]
    after_results
    rfl
  show (V m c main_v0 : S4x104x320.Idx → Elt F .f32) (ix3 b (padPos u) x) = _
  rw [e]
  exact pad_apply_of_inside _ _ _ _ _ _ _ (ix3 b (padPos u) x) (ix3 b u x) (fun a => match a with
    | ⟨0, _⟩ => by show b.val = 0 + b.val * (0 + 1); omega
    | ⟨1, _⟩ => by show u.val = 0 + u.val * (0 + 1); omega
    | ⟨2, _⟩ => by show x.val = 0 + x.val * (0 + 1); omega)

/-- The audio projection's bias as a one-row matrix. -/
theorem baArr_apply (c : Dev nD) (h : Fin 640) :
    baArr m c (ix2 0 h) = (m ((c : Thread nD τ).loc main_arg3) : S640.Idx → Elt F .f32) (ix1 h) := by
  have e : (V m c main_v1 : S1x640.Idx → Elt F .f32) = shapeCast S1x640 (m ((c : Thread nD τ).loc main_arg3)) shapeCasts_S640_S1x640 := by
    dsimp only [Gen.V, Gen.V0]
    simp only [Gen.hostOps0, Gen.hostOps0_1, Gen.hostOps0_2, List.flatten_cons, List.flatten_nil, List.append_nil, List.cons_append, List.nil_append]
    after_results
    rfl
  show (V m c main_v1 : S1x640.Idx → Elt F .f32) (ix2 0 h) = _
  rw [e]
  exact shapeCast_apply _ _ (ix2 0 h) (ix1 h) (by
    rw [Shape.rowMajor_val_one, Shape.rowMajor_val_two]
    show h.val = (0 : Nat) * 640 + h.val
    omega)

/-- The text projection's bias as a one-row matrix. -/
theorem btArr_apply (c : Dev nD) (h : Fin 640) :
    btArr m c (ix2 0 h) = (m ((c : Thread nD τ).loc main_arg5) : S640.Idx → Elt F .f32) (ix1 h) := by
  have e : (V m c main_v2 : S1x640.Idx → Elt F .f32) = shapeCast S1x640 (m ((c : Thread nD τ).loc main_arg5)) shapeCasts_S640_S1x640 := by
    dsimp only [Gen.V, Gen.V0]
    simp only [Gen.hostOps0, Gen.hostOps0_1, Gen.hostOps0_2, List.flatten_cons, List.flatten_nil, List.append_nil, List.cons_append, List.nil_append]
    after_results
    rfl
  show (V m c main_v2 : S1x640.Idx → Elt F .f32) (ix2 0 h) = _
  rw [e]
  exact shapeCast_apply _ _ (ix2 0 h) (ix1 h) (by
    rw [Shape.rowMajor_val_one, Shape.rowMajor_val_two]
    show h.val = (0 : Nat) * 640 + h.val
    omega)

/-- The class bias as a one-row matrix. -/
theorem bjArr_apply (c : Dev nD) (v : Fin 512) :
    bjArr m c (ix2 0 v) = (m ((c : Thread nD τ).loc main_arg7) : S512.Idx → Elt F .f32) (ix1 v) := by
  have e : (V m c main_v3 : S1x512.Idx → Elt F .f32) = shapeCast S1x512 (m ((c : Thread nD τ).loc main_arg7)) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  show (V m c main_v3 : S1x512.Idx → Elt F .f32) (ix2 0 v) = _
  rw [e]
  exact shapeCast_apply _ _ (ix2 0 v) (ix1 v) (by
    rw [Shape.rowMajor_val_one, Shape.rowMajor_val_two]
    show v.val = (0 : Nat) * 512 + v.val
    omega)

/-- The arrays no host line touches are the arguments. -/
theorem audioArr_eq (c : Dev nD) : audioArr m c = m ((c : Thread nD τ).loc main_arg0) := V_main_arg0 m c
theorem waArr_eq (c : Dev nD) : waArr m c = m ((c : Thread nD τ).loc main_arg2) := V_main_arg2 m c
theorem wtArr_eq (c : Dev nD) : wtArr m c = m ((c : Thread nD τ).loc main_arg4) := V_main_arg4 m c
theorem wjArr_eq (c : Dev nD) : wjArr m c = m ((c : Thread nD τ).loc main_arg6) := V_main_arg6 m c

end Cert.KernelIdeal.Point

end
-- ==== Proof.KernelResult.lean ====
/-
  The kernel's result.

  The output window is written back once per tile, after the tile's last hidden block, when its buffer holds for every
  entry of the tile the whole sum of the entry's 640 contributions plus the class bias. The tiles (one per batch entry
  and per 32 audio frames) cover the padded output array, so that array ends holding the network's output at every
  (batch, frame, padded text position, class). The program's result is the slice of the first 100 text positions, where
  the padded text is the text argument: the network's output on the arguments.
-/
import proofs.«113914_j48988396978795_1_alg».proof.Proof.Accum
import proofs.«113914_j48988396978795_1_alg».proof.Proof.HostPrefix

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Point

open Cert.KernelIdeal Cert.KernelIdeal.Gen

variable (m : (ℓ : Loc nD τ sig) → Buf (Elt Ideal) ℓ) (ρ : Dev nD → PrngReg)

/-- With the last block in, the accumulator is the whole sum (the block number given up to an equation). -/
theorem running_at_last (f : Fin 640 → EReal) (k : Nat) (hk : k < 5) (h : k = 4) : JointNet.running f k hk = ∑ h : Fin 640, f h := by
  subst h; exact JointNet.running_last f

/-! ## The padded output array -/

/-- The network's output at every (batch, frame, padded text position, class), over the arrays the region finds. -/
def paddedAt (c : Dev nD) (b : Fin 4) (f : Fin 512) (u : Fin 104) (v : Fin 512) : EReal :=
  JointNet.logit
    (JointNet.proj (fun x => audioArr m c (ix3 b f x)) (fun x h => waArr m c (ix2 x h)) (fun h => baArr m c (ix2 0 h)))
    (JointNet.proj (fun x => textArr m c (ix3 b u x)) (fun x h => wtArr m c (ix2 x h)) (fun h => btArr m c (ix2 0 h)))
    (fun h v => wjArr m c (ix2 h v)) (fun v => bjArr m c (ix2 0 v)) v

/-- It is the sum of the entry's contributions, plus the class bias. -/
theorem paddedAt_eq_sum (c : Dev nD) (b : Fin 4) (f : Fin 512) (u : Fin 104) (v : Fin 512) :
    paddedAt m c b f u v = (∑ h : Fin 640, contrib m c b f u v h) + bjArr m c (ix2 0 v) := rfl

/-- The same as an array. -/
def outPadded (c : Dev nD) : Vec Ideal S4x512x104x512 .f32 := fun i => paddedAt m c (i 0) (i 1) (i 2) (i 3)

/-- Entry (r, u, v) of point `t`'s output block sits at (batch of t, frame r of t's tile, u, v). -/
theorem outBlock_emb (t : Fin cfg0.N) (r : Fin 32) (u : Fin 104) (v : Fin 512) :
    ((cfg0.win 8).blk t).view.emb (ix4 0 r u v) = (ix4 (batchOf t) (frameOf t r) u v : S4x512x104x512.Idx) := by
  funext a
  apply Fin.ext
  match a with
  | ⟨0, _⟩ => show win0_8.index t 0 * 1 + 1 * 0 = t.val / 80; rw [(outIndex t).1]; omega
  | ⟨1, _⟩ => show win0_8.index t 1 * 32 + 1 * r.val = 32 * ((t.val / 5) % 16) + r.val; rw [(outIndex t).2.1]; omega
  | ⟨2, _⟩ => show win0_8.index t 2 * 104 + 1 * u.val = u.val; rw [(outIndex t).2.2.1]; omega
  | ⟨3, _⟩ => show win0_8.index t 3 * 512 + 1 * v.val = v.val; rw [(outIndex t).2.2.2]; omega

/-- What a writing-back point writes back is its block of the padded output. -/
theorem flushed_eq (c : Dev nD) (t : Fin cfg0.N) (hf : (cfg0.win 8).flush t = true) :
    (dats m 0 c).flushed 8 t = ((cfg0.win 8).blk t).view.read (Elt Ideal) (outPadded m c) := by
  have h4 : t.val % 5 = 4 := (flush0_8 t).mp hf
  show (cfg0.win 8).cut (grid0.coords t) ((dats m 0 c).after 8 t) = _
  rw [after0_8]
  funext j
  rw [View.read_apply]
  obtain ⟨r, u, v, rfl⟩ : ∃ (r : Fin 32) (u : Fin 104) (v : Fin 512), j = ix4 0 r u v :=
    ⟨j 1, j 2, j 3, funext fun a => match a with
      | ⟨0, h⟩ => Fin.ext (by have h1 : (j ⟨0, h⟩).val < 1 := (j ⟨0, h⟩).isLt; show (j ⟨0, h⟩).val = 0; omega)
      | ⟨1, _⟩ => rfl | ⟨2, _⟩ => rfl | ⟨3, _⟩ => rfl⟩
  show outsAt0 m c t.val t.isLt (ix4 0 r u v) = outPadded m c (((cfg0.win 8).blk t).view.emb (ix4 0 r u v))
  rw [outBlock_emb, acc_eq]
  show _ = paddedAt m c (batchOf t) (frameOf t r) u v
  rw [paddedAt_eq_sum]
  unfold biasAt
  rw [if_pos h4, running_at_last _ _ _ h4]

/-- An index of the padded output is in point `t`'s block iff each coordinate is in the block's range. -/
theorem mem_outBlock (t : Fin cfg0.N) (i : S4x512x104x512.Idx) :
    i ∈ ((cfg0.win 8).blk t).view.set ↔ ∀ a : Fin 4, win0_8.index t a * S1x32x104x512.size a ≤ (i a).val
      ∧ (i a).val < win0_8.index t a * S1x32x104x512.size a + S1x32x104x512.size a := by
  show i ∈ ((View.whole main_v4).slice (win0_8.rect t)).set ↔ _
  rw [View.set_slice_whole, Rect.mem_set_unit]
  exact Iff.rfl

/-- Every index is in the block of the last point of its tile, which writes back. -/
theorem covered (i : S4x512x104x512.Idx) :
    ∃ t : Fin cfg0.N, (cfg0.win 8).flush t = true ∧ i ∈ ((cfg0.win 8).blk t).view.set := by
  have h0 : (i 0).val < 4 := (i 0).isLt
  have h1 : (i 1).val < 512 := (i 1).isLt
  have h2 : (i 2).val < 104 := (i 2).isLt
  have h3 : (i 3).val < 512 := (i 3).isLt
  have hlt : 80 * (i 0).val + 5 * ((i 1).val / 32) + 4 < cfg0.N := by rw [points]; omega
  refine ⟨⟨80 * (i 0).val + 5 * ((i 1).val / 32) + 4, hlt⟩, (flush0_8 _).mpr (by show (80 * (i 0).val + 5 * ((i 1).val / 32) + 4) % 5 = 4; omega), ?_⟩
  rw [mem_outBlock]
  obtain ⟨e0, e1, e2, e3⟩ := outIndex ⟨80 * (i 0).val + 5 * ((i 1).val / 32) + 4, hlt⟩
  intro a
  match a with
  | ⟨0, _⟩ =>
    show win0_8.index ⟨80 * (i 0).val + 5 * ((i 1).val / 32) + 4, hlt⟩ 0 * 1 ≤ (i 0).val ∧ (i 0).val < win0_8.index ⟨80 * (i 0).val + 5 * ((i 1).val / 32) + 4, hlt⟩ 0 * 1 + 1
    rw [e0]; show (80 * (i 0).val + 5 * ((i 1).val / 32) + 4) / 80 * 1 ≤ (i 0).val ∧ (i 0).val < (80 * (i 0).val + 5 * ((i 1).val / 32) + 4) / 80 * 1 + 1; omega
  | ⟨1, _⟩ =>
    show win0_8.index ⟨80 * (i 0).val + 5 * ((i 1).val / 32) + 4, hlt⟩ 1 * 32 ≤ (i 1).val ∧ (i 1).val < win0_8.index ⟨80 * (i 0).val + 5 * ((i 1).val / 32) + 4, hlt⟩ 1 * 32 + 32
    rw [e1]; show (80 * (i 0).val + 5 * ((i 1).val / 32) + 4) / 5 % 16 * 32 ≤ (i 1).val ∧ (i 1).val < (80 * (i 0).val + 5 * ((i 1).val / 32) + 4) / 5 % 16 * 32 + 32; omega
  | ⟨2, _⟩ =>
    show win0_8.index ⟨80 * (i 0).val + 5 * ((i 1).val / 32) + 4, hlt⟩ 2 * 104 ≤ (i 2).val ∧ (i 2).val < win0_8.index ⟨80 * (i 0).val + 5 * ((i 1).val / 32) + 4, hlt⟩ 2 * 104 + 104
    rw [e2]; omega
  | ⟨3, _⟩ =>
    show win0_8.index ⟨80 * (i 0).val + 5 * ((i 1).val / 32) + 4, hlt⟩ 3 * 512 ≤ (i 3).val ∧ (i 3).val < win0_8.index ⟨80 * (i 0).val + 5 * ((i 1).val / 32) + 4, hlt⟩ 3 * 512 + 512
    rw [e3]; omega

/-- The padded output array after the region. -/
theorem final_out (c : Dev nD) : (dats m 0 c).arrAt 8 cfg0.N = outPadded m c :=
  (dats m 0 c).arrAt_eq_of_cover 8 (outPadded m c) (flushed_eq m c) covered

/-! ## The slice after the region, and the result over the arguments -/

/-- The network's output on the program's arguments at (batch, frame, text position, class). -/
def resultAt (c : Dev nD) (b : Fin 4) (f : Fin 512) (u : Fin 100) (v : Fin 512) : EReal :=
  JointNet.logit
    (JointNet.proj (fun x => (m ((c : Thread nD τ).loc main_arg0) : S4x512x512.Idx → EReal) (ix3 b f x))
      (fun x h => (m ((c : Thread nD τ).loc main_arg2) : S512x640.Idx → EReal) (ix2 x h))
      (fun h => (m ((c : Thread nD τ).loc main_arg3) : S640.Idx → EReal) (ix1 h)))
    (JointNet.proj (fun x => (m ((c : Thread nD τ).loc main_arg1) : S4x100x320.Idx → EReal) (ix3 b u x))
      (fun x h => (m ((c : Thread nD τ).loc main_arg4) : S320x640.Idx → EReal) (ix2 x h))
      (fun h => (m ((c : Thread nD τ).loc main_arg5) : S640.Idx → EReal) (ix1 h)))
    (fun h v => (m ((c : Thread nD τ).loc main_arg6) : S640x512.Idx → EReal) (ix2 h v))
    (fun v => (m ((c : Thread nD τ).loc main_arg7) : S512.Idx → EReal) (ix1 v)) v

/-- The same as an array. -/
def result (c : Dev nD) : Vec Ideal S4x512x100x512 .f32 := fun i => resultAt m c (i 0) (i 1) (i 2) (i 3)

/-- At a real text position the padded output is the network's output on the arguments. -/
theorem paddedAt_eq (c : Dev nD) (b : Fin 4) (f : Fin 512) (u : Fin 100) (v : Fin 512) :
    paddedAt m c b f (padPos u) v = resultAt m c b f u v := by
  have ea : (fun x : Fin 512 => audioArr m c (ix3 b f x)) = fun x => (m ((c : Thread nD τ).loc main_arg0) : S4x512x512.Idx → EReal) (ix3 b f x) :=
    funext fun x => congrFun (audioArr_eq m c) (ix3 b f x)
  have ewa : (fun (x : Fin 512) (h : Fin 640) => waArr m c (ix2 x h)) = fun x h => (m ((c : Thread nD τ).loc main_arg2) : S512x640.Idx → EReal) (ix2 x h) :=
    funext fun x => funext fun h => congrFun (waArr_eq m c) (ix2 x h)
  have eba : (fun h : Fin 640 => baArr m c (ix2 0 h)) = fun h => (m ((c : Thread nD τ).loc main_arg3) : S640.Idx → EReal) (ix1 h) :=
    funext fun h => baArr_apply m c h
  have et : (fun x : Fin 320 => textArr m c (ix3 b (padPos u) x)) = fun x => (m ((c : Thread nD τ).loc main_arg1) : S4x100x320.Idx → EReal) (ix3 b u x) :=
    funext fun x => textArr_apply m c b u x
  have ewt : (fun (x : Fin 320) (h : Fin 640) => wtArr m c (ix2 x h)) = fun x h => (m ((c : Thread nD τ).loc main_arg4) : S320x640.Idx → EReal) (ix2 x h) :=
    funext fun x => funext fun h => congrFun (wtArr_eq m c) (ix2 x h)
  have ebt : (fun h : Fin 640 => btArr m c (ix2 0 h)) = fun h => (m ((c : Thread nD τ).loc main_arg5) : S640.Idx → EReal) (ix1 h) :=
    funext fun h => btArr_apply m c h
  have ewj : (fun (h : Fin 640) (v : Fin 512) => wjArr m c (ix2 h v)) = fun h v => (m ((c : Thread nD τ).loc main_arg6) : S640x512.Idx → EReal) (ix2 h v) :=
    funext fun h => funext fun v => congrFun (wjArr_eq m c) (ix2 h v)
  have ebj : (fun v : Fin 512 => bjArr m c (ix2 0 v)) = fun v => (m ((c : Thread nD τ).loc main_arg7) : S512.Idx → EReal) (ix1 v) :=
    funext fun v => bjArr_apply m c v
  unfold paddedAt resultAt
  rw [ea, ewa, eba, et, ewt, ebt, ewj, ebj]

/-- The slice of the padded output at a real text position is the network's output on the arguments. -/
theorem slice_eq (c : Dev nD) (h : S4x512x104x512.Slices ![0, 0, 0, 0] S4x512x100x512) :
    extractStridedSlice S4x512x100x512 ![0, 0, 0, 0] (outPadded m c) h = result m c := by
  funext i
  obtain ⟨b, f, u, v, rfl⟩ : ∃ (b : Fin 4) (f : Fin 512) (u : Fin 100) (v : Fin 512), i = ix4 b f u v := ⟨i 0, i 1, i 2, i 3, eq_ix4 i⟩
  refine (extractStridedSlice_apply _ _ _ (ix4 b f u v) (ix4 b f (padPos u) v) (fun a => match a with
    | ⟨0, _⟩ => by show b.val = 0 + b.val; omega
    | ⟨1, _⟩ => by show f.val = 0 + f.val; omega
    | ⟨2, _⟩ => by show u.val = 0 + u.val; omega
    | ⟨3, _⟩ => by show v.val = 0 + v.val; omega)).trans ?_
  exact paddedAt_eq m c b f u v

/-- The program's result buffer after the host slice that follows the region. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4) = outPadded m c :=
    (Pipeline.withArrays_arr spec0 launch0.win.arr_inj c _ _ 8).trans (final_out m c)
  rw [e]
  exact slice_eq m c _

/-! ## The run, with its result named -/

/-- Every weakly fair execution of the kernel program ends with the result buffer at the network's output on the
    arguments, and the arguments as launched. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c))⟩)
    (run_main m ρ)

end Cert.KernelIdeal.Point

end
-- ==== Proof.RefEntry.lean ====
/-
  The reference, read at an entry.

  The reference projects all audio frames and all text positions onto the 640 hidden units, broadcasts the two
  projections against each other, applies tanh, contracts the hidden axis with the class weights and adds the class
  bias. Read at (batch b, frame t, text position u, class v) through its eighteen operations, that is the network's
  class-`v` output for the audio row (b, t) and the text row (b, u).
-/
import proofs.«113914_j48988396978795_1_alg».proof.Proof.Gen.ReferenceIdeal.Read
import proofs.«113914_j48988396978795_1_alg».proof.Proof.Spec

noncomputable section

open scoped BigOperators
open Idealize.ShloMosaic Idealize.ShloMosaic.ValueIdx

namespace Cert.ReferenceIdeal.Entry

open Cert.ReferenceIdeal Cert.ReferenceIdeal.Read

variable (b : Fin 4) (t : Fin 512) (u : Fin 100) (v : Fin 512) (k : Fin 640)

/-! ## The composed index functions, as coordinates -/

theorem audioAt (x : Fin 512) :
    lidx_main_v0 (idx_main_v8 (idx_main_v10 (lidx_main_v14 (ix4 b t u v) k))) x = ix3 b t x :=
  funext fun a => match a with | ⟨0, _⟩ => rfl | ⟨1, _⟩ => rfl | ⟨2, _⟩ => rfl
theorem waAt (x : Fin 512) :
    ridx_main_v0 (idx_main_v8 (idx_main_v10 (lidx_main_v14 (ix4 b t u v) k))) x = ix2 x k :=
  funext fun a => match a with | ⟨0, _⟩ => rfl | ⟨1, _⟩ => rfl
theorem baAt :
    idx_main_v1 (idx_main_v2 (idx_main_v8 (idx_main_v10 (lidx_main_v14 (ix4 b t u v) k)))) = ix1 k :=
  funext fun a => match a with | ⟨0, _⟩ => rfl
theorem textAt (x : Fin 320) :
    lidx_main_v4 (idx_main_v9 (idx_main_v11 (lidx_main_v14 (ix4 b t u v) k))) x = ix3 b u x :=
  funext fun a => match a with | ⟨0, _⟩ => rfl | ⟨1, _⟩ => rfl | ⟨2, _⟩ => rfl
theorem wtAt (x : Fin 320) :
    ridx_main_v4 (idx_main_v9 (idx_main_v11 (lidx_main_v14 (ix4 b t u v) k))) x = ix2 x k :=
  funext fun a => match a with | ⟨0, _⟩ => rfl | ⟨1, _⟩ => rfl
theorem btAt :
    idx_main_v5 (idx_main_v6 (idx_main_v9 (idx_main_v11 (lidx_main_v14 (ix4 b t u v) k)))) = ix1 k :=
  funext fun a => match a with | ⟨0, _⟩ => rfl
theorem wjAt : ridx_main_v14 (ix4 b t u v) k = ix2 k v :=
  funext fun a => match a with | ⟨0, _⟩ => rfl | ⟨1, _⟩ => rfl
theorem bjAt : idx_main_v15 (idx_main_v16 (ix4 b t u v)) = ix1 v :=
  funext fun a => match a with | ⟨0, _⟩ => rfl

/-! ## The reference's result at an entry -/

/-- Entry (b, t, u, v) of the reference's result is the network's class-`v` output on audio row (b, t) and text row
    (b, u). -/
theorem result_apply (x0 : (⟨S4x512x512, .f32⟩ : BufTy).Contents (Elt Ideal)) (x1 : (⟨S4x100x320, .f32⟩ : BufTy).Contents (Elt Ideal))
    (x2 : (⟨S512x640, .f32⟩ : BufTy).Contents (Elt Ideal)) (x3 : (⟨S640, .f32⟩ : BufTy).Contents (Elt Ideal))
    (x4 : (⟨S320x640, .f32⟩ : BufTy).Contents (Elt Ideal)) (x5 : (⟨S640, .f32⟩ : BufTy).Contents (Elt Ideal))
    (x6 : (⟨S640x512, .f32⟩ : BufTy).Contents (Elt Ideal)) (x7 : (⟨S512, .f32⟩ : BufTy).Contents (Elt Ideal)) :
    val_main_v17 (F := Ideal) x0 x1 x2 x3 x4 x5 x6 x7 (ix4 b t u v)
      = JointNet.logit
          (JointNet.proj (fun x => x0 (ix3 b t x)) (fun x h => x2 (ix2 x h)) (fun h => x3 (ix1 h)))
          (JointNet.proj (fun x => x1 (ix3 b u x)) (fun x h => x4 (ix2 x h)) (fun h => x5 (ix1 h)))
          (fun h v => x6 (ix2 h v)) (fun v => x7 (ix1 v)) v := by
  rw [val_main_v17_apply, val_main_v14_apply, val_main_v16_apply, val_main_v15_apply, bjAt]
  unfold JointNet.logit JointNet.term JointNet.proj
  show (∑ k : Fin 640, _) + _ = (∑ h : Fin 640, _) + _
  congr 1
  refine Finset.sum_congr rfl fun k _ => ?_
  rw [val_main_v13_apply, val_main_v12_apply, val_main_v10_apply, val_main_v8_apply, val_main_v3_apply, val_main_v0_apply,
    val_main_v2_apply, val_main_v1_apply, val_main_v11_apply, val_main_v9_apply, val_main_v7_apply, val_main_v4_apply,
    val_main_v6_apply, val_main_v5_apply, wjAt, baAt, btAt]
  simp only [audioAt, waAt, textAt, wtAt]
  rfl

end Cert.ReferenceIdeal.Entry

end
-- ==== Proof.lean ====
/-
  The joint network, fused and blocked, against its plain form.

  Both programs compute, for a batch entry b, an audio frame t, a text position u and a class v,
      out[b, t, u, v] = ∑ₕ tanh ((audio[b, t, :] · Wa[:, h] + ba[h]) + (text[b, u, :] · Wt[:, h] + bt[h])) · Wj[h, v] + bj[v]
  over the 640 hidden units h.

  The reference does it whole: two projections, their broadcast sum, tanh, one contraction over the hidden axis, the bias.

  The kernel works on a grid of 4 batch entries × 16 tiles of 32 frames × 5 blocks of 128 hidden units, on the text padded
  from 100 to 104 positions with zero rows. At a point it recomputes both projections for its hidden block, forms the
  tanh of their sum for its 32 × 104 (frame, text position) pairs, multiplies by the block's rows of Wj, and adds the
  product into an output tile that stays resident over the five hidden blocks: zeroed before the first, the class
  bias added after the last, written back once. The narrowings to bf16 before the products are the identity on extended
  reals. So the tile ends holding, entry by entry, the five block sums added in order from zero, plus the bias; addition of
  extended reals is commutative and associative, so that is the sum over all 640 units plus the bias — no finiteness of the
  inputs is used. The program returns the first 100 text positions of the padded output, where the padded text is the
  text itself; the four padded positions are computed and dropped.

  The three frames: the two kernel programs' are the generated frame certificates; the reference's is its run with the
  result dropped. The idealization rewrote no operation, so nothing is owed for it.
-/
import proofs.«113914_j48988396978795_1_alg».proof.Defs
import proofs.«113914_j48988396978795_1_alg».proof.Proof.Gen.Kernel
import proofs.«113914_j48988396978795_1_alg».proof.Proof.Gen.Kernel.Skeleton
import proofs.«113914_j48988396978795_1_alg».proof.Proof.Gen.Kernel.Launch
import proofs.«113914_j48988396978795_1_alg».proof.Proof.Gen.Kernel.Points
import proofs.«113914_j48988396978795_1_alg».proof.Proof.Gen.Kernel.Frame
import proofs.«113914_j48988396978795_1_alg».proof.Proof.Gen.KernelIdeal
import proofs.«113914_j48988396978795_1_alg».proof.Proof.Gen.KernelIdeal.Skeleton
import proofs.«113914_j48988396978795_1_alg».proof.Proof.Gen.KernelIdeal.Launch
import proofs.«113914_j48988396978795_1_alg».proof.Proof.Gen.KernelIdeal.Points
import proofs.«113914_j48988396978795_1_alg».proof.Proof.Gen.KernelIdeal.Frame
import proofs.«113914_j48988396978795_1_alg».proof.Proof.Gen.ReferenceIdeal
import proofs.«113914_j48988396978795_1_alg».proof.Proof.Gen.Pre_finite_inputs
import proofs.«113914_j48988396978795_1_alg».proof.Proof.Gen.ReferenceIdeal.Run
import proofs.«113914_j48988396978795_1_alg».proof.Proof.Gen.ReferenceIdeal.Read
import proofs.«113914_j48988396978795_1_alg».proof.Proof.KernelResult
import proofs.«113914_j48988396978795_1_alg».proof.Proof.RefEntry
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference runs to its composed term and leaves its arguments as launched; the frame forgets the term. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the eight arguments, the kernel's result array and the reference's hold, entry by entry,
    the same network output of the same arguments. -/
theorem algebraic : Cert.algebraic_KernelIdeal_ReferenceIdeal := by
  intro m ρ m' ρ' _ hagree
  refine ⟨fun c => Cert.KernelIdeal.Point.result m c, Cert.KernelIdeal.Point.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v17_eq, h0, h1, h2, h3, h4, h5, h6, h7]
  funext i
  obtain ⟨b, f, u, v, rfl⟩ : ∃ (b : Fin 4) (f : Fin 512) (u : Fin 100) (v : Fin 512), i = ix4 b f u v :=
    ⟨i 0, i 1, i 2, i 3, eq_ix4 i⟩
  rw [Cert.ReferenceIdeal.Entry.result_apply]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
